-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  main_v3
-- ==== Kernel.lean ====
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S2048x1024 : Shape := ⟨2, ![2048, 1024]⟩
abbrev S2048x1 : Shape := ⟨2, ![2048, 1]⟩
abbrev S2048x2048 : Shape := ⟨2, ![2048, 2048]⟩
abbrev S2048 : Shape := ⟨1, ![2048]⟩

abbrev nBuf : Space → Nat
  | .hbm => 30
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S16384, .f32⟩
  | .hbm, ⟨4, _⟩ => ⟨S16384x1, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S16384x1024, .f32⟩
  | .hbm, ⟨10, _⟩ => ⟨S16384x1024, .f32⟩
  | .hbm, ⟨11, _⟩ => ⟨S16384x1024, .bf16⟩
  | .hbm, ⟨12, _⟩ => ⟨S16384x1, .f32⟩
  | .hbm, ⟨13, _⟩ => ⟨S16384, .f32⟩
  | .hbm, ⟨14, _⟩ => ⟨S_, .f32⟩
  | .hbm, ⟨15, _⟩ => ⟨S16384, .f32⟩
  | .hbm, ⟨16, _⟩ => ⟨S16384, .f32⟩
  | .hbm, ⟨17, _⟩ => ⟨S_, .f32⟩
  | .hbm, ⟨18, _⟩ => ⟨S16384, .f32⟩
  | .hbm, ⟨19, _⟩ => ⟨S16384, .f32⟩
  | .hbm, ⟨20, _⟩ => ⟨S_, .f32⟩
  | .hbm, ⟨21, _⟩ => ⟨S16384, .f32⟩
  | .hbm, ⟨22, _⟩ => ⟨S16384, .f32⟩
  | .hbm, ⟨23, _⟩ => ⟨S16384, .f32⟩
  | .hbm, ⟨24, _⟩ => ⟨S16384, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_11 : BitVec 32 := 0#32
  let v28 : BitVec 1 := Scalar.cmpi .ne v27 c0_i32_11
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  iota_S2048x2048_d0_w32 : S2048x2048.Iotas .tc 32 [0]
  iota_S2048x2048_d1_w32 : S2048x2048.Iotas .tc 32 [1]
  reduces_S2048x2048_S2048 : S2048x2048.Reduces [1] S2048
  shapeCasts_S2048_S2048x1 : S2048.ShapeCasts S2048x1
  shapeCasts_S16384x1_S16384 : S16384x1.ShapeCasts S16384
  bcast_S_S16384 : S_.BroadcastsInDim S16384 (![] : Fin 0 → Fin S16384.rank)
  reducesTo_S16384_S_d0 : S16384.ReducesTo [0] S_
  dot_S2048x1024_S2048x1024_S2048x2048_1_1_0_0_n_n_wf : DotDims.WF S2048x1024 S2048x1024 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .bf16 = 32 ∨ (Rect.block (s := S16384x1024) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S16384x1024.size a
  hwx0_1 : ∀ i : grid0.Coords, EltTy.bits .bf16 = 32 ∨ (Rect.block (s := S16384x1024) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S16384x1.size a
  hwx0_2 : ∀ i : grid0.Coords, EltTy.bits .f32 = 32 ∨ (Rect.block (s := S16384x1) S2048x1.size (cc0_transform_2 i) (hinb0_2 i)).WholeWords (EltTy.packing .f32)

variable [Facts₀]

def dot_S2048x1024_S2048x1024_S2048x2048_1_1_0_0_n_n : DotDims S2048x1024 S2048x1024 S2048x2048 where
  lhsContracting := [1]
  rhsContracting := [1]
  lhsNonContracting := [0]
  rhsNonContracting := [0]
  lhsBatch := []
  rhsBatch := []
  wf := dot_S2048x1024_S2048x1024_S2048x2048_1_1_0_0_n_n_wf

abbrev win0_0 : Pipeline.Window sig grid0 :=
  Pipeline.Window.ofSpec (Memref.whole main_v5) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1024x16384 : Shape := ⟨2, ![1024, 16384]⟩
abbrev S16384x16384 : Shape := ⟨2, ![16384, 16384]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S16384, .f32⟩
  | .hbm, ⟨4, _⟩ => ⟨S16384x1, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S16384x1024, .f32⟩
  | .hbm, ⟨10, _⟩ => ⟨S16384x1024, .f32⟩
  | .hbm, ⟨11, _⟩ => ⟨S1024x16384, .f32⟩
  | .hbm, ⟨12, _⟩ => ⟨S16384x16384, .f32⟩
  | .hbm, ⟨13, _⟩ => ⟨S16384x16384, .i32⟩
  | .hbm, ⟨14, _⟩ => ⟨S16384x16384, .i32⟩
  | .hbm, ⟨15, _⟩ => ⟨S_, .i32⟩
  | .hbm, ⟨16, _⟩ => ⟨S16384x16384, .i32⟩
  | .hbm, ⟨17, _⟩ => ⟨S16384x16384, .i32⟩
  | .hbm, ⟨18, _⟩ => ⟨S16384x16384, .i1⟩
  | .hbm, ⟨19, _⟩ => ⟨S_, .f32⟩
  | .hbm, ⟨20, _⟩ => ⟨S_, .f32⟩
  | .hbm, ⟨21, _⟩ => ⟨S16384x16384, .f32⟩
  | .hbm, ⟨22, _⟩ => ⟨S16384x16384, .f32⟩
  | .hbm, ⟨23, _⟩ => ⟨S_, .f32⟩
  | .hbm, ⟨24, _⟩ => ⟨S16384, .f32⟩
  | .hbm, ⟨25, _⟩ => ⟨S_, .f32⟩
  | .hbm, ⟨26, _⟩ => ⟨S16384, .f32⟩
  | .hbm, ⟨27, _⟩ => ⟨S16384, .f32⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S_, .f32⟩
  | .hbm, ⟨32, _⟩ => ⟨S16384, .f32⟩
  | .hbm, ⟨33, _⟩ => ⟨S16384, .f32⟩
  | .hbm, ⟨34, _⟩ => ⟨S16384, .f32⟩
  | .hbm, ⟨35, _⟩ => ⟨S16384, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_call1_v0 : Ref sig .tc := ⟨.hbm, 20, rfl⟩
abbrev main_call1_v1 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  transposes_S16384x1024_S1024x16384_1_0 : S16384x1024.Transposes [1, 0] S1024x16384
  bcast_S_S16384x16384 : S_.BroadcastsInDim S16384x16384 (![] : Fin 0 → Fin S16384x16384.rank)
  reducesTo_S16384x16384_S16384_d1 : S16384x16384.ReducesTo [1] S16384
  bcast_S_S16384 : S_.BroadcastsInDim S16384 (![] : Fin 0 → Fin S16384.rank)
  reducesTo_S16384_S_d0 : S16384.ReducesTo [0] S_
  dot_S16384x1024_S1024x16384_S16384x16384_1_0_0_1_n_n_wf : DotDims.WF S16384x1024 S1024x16384 S16384x16384 [1] [0] [0] [1] [] []

variable [Facts₀]

def dot_S16384x1024_S1024x16384_S16384x16384_1_0_0_1_n_n : DotDims S16384x1024 S1024x16384 S16384x16384 where
  lhsContracting := [1]
  rhsContracting := [0]
  lhsNonContracting := [0]
  rhsNonContracting := [1]
  lhsBatch := []
  rhsBatch := []
  wf := dot_S16384x1024_S1024x16384_S16384x16384_1_0_0_1_n_n_wf

class Facts : Prop extends Facts₀ where

variable [Facts]
-- ==== Proof.KernelData.lean ====
/-
  The proof data of the one pipelined region, generic in the float instance.

  The grid has 64 points t = 8·i + j (row tile i, column tile j). Windows 0 and 1 both read the array of
  normalised rows, window 0 at row tile i and window 1 at row tile j; window 2 is the output column at row tile i.
  The scratch column carries, after point t, the running maximum over the column tiles 0..j of the masked Gram
  tile of row tile i: it is reset to -∞ when j = 0, and copied to the output block when j = 7.
-/
import proofs.«138519_j13924283973723_1_alg».proof.Proof.Gen.Kernel.Launch
import proofs.«138519_j13924283973723_1_alg».proof.Proof.Gen.Kernel.Skeleton
import proofs.«138519_j13924283973723_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffer contents when the region is entered: the launch memory after the two host stretches
    (the row norms, then the clamp, the quotient and the narrowing). -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row tile (window 0) and the column tile (window 1) of the normalised rows at point `t`, at their literal type. -/
abbrev rowTile (c : Dev nD) (t : Fin cfg0.N) : Vec F S2048x1024 .bf16 := iblk m c 0 t
abbrev colTile (c : Dev nD) (t : Fin cfg0.N) : Vec F S2048x1024 .bf16 := iblk m c 1 t

/-! ## The two branches, decided over the grid -/

/-- The reset branch is taken exactly when the column tile is the first. -/
abbrev condReset (i : grid0.Coords) : Prop :=
  (Scalar.cmpi .ne (Scalar.extui (Scalar.cmpi .eq (BitVec.ofNat 32 (i 1).val) 0#32)) 0#32) = 1#1
theorem hcondReset : ∀ t : Fin cfg0.N, condReset (grid0.coords t) ↔ t.val % 8 = 0 :=
  (by decide +kernel : ∀ t : Fin grid0.N, condReset (grid0.coords t) ↔ t.val % 8 = 0)

/-- The write-out branch is taken exactly when the column tile is the last. -/
abbrev condOut (i : grid0.Coords) : Prop := k0_cond2 i = 1#1
theorem hcondOut : ∀ t : Fin cfg0.N, condOut (grid0.coords t) ↔ t.val % 8 = 7 :=
  (by decide +kernel : ∀ t : Fin grid0.N, condOut (grid0.coords t) ↔ t.val % 8 = 7)

/-- The inputs are never idle; the output is idle, and not written back, away from the last column tile. -/
theorem live0 : ∀ i : grid0.Coords, cfg0.idle 0 i = false := fun _ => rfl
theorem live1 : ∀ i : grid0.Coords, cfg0.idle 1 i = false := fun _ => rfl
theorem idle2 : ∀ t : Fin cfg0.N, ¬condOut (grid0.coords t) → cfg0.idle 2 (grid0.coords t) = true := by decide +kernel
theorem noFlush2 : ∀ t : Fin cfg0.N, ¬condOut (grid0.coords t) → (cfg0.win 2).flush t = false := by decide +kernel
theorem live2 : ∀ t : Fin cfg0.N, condOut (grid0.coords t) → cfg0.idle 2 (grid0.coords t) = false := by decide +kernel

/-! ## The staging memrefs at a point, and the scratch -/

abbrev ms0 (t : Fin cfg0.N) : Memref sig .tc .vmem S2048x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1 .f32 := win0_2.stage (cfg0.slots t 2)
abbrev hs2 (t : Fin cfg0.N) : (ms2 t).IsWhole := hstage0_2 ((cfg0.slots t 2).cast nbuf0_2)
/-- The scratch column the kernel carries between points. -/
abbrev scM : Memref sig .tc .vmem S2048x1 .f32 := Memref.whole cc0_scratch0

/-! ## The carried maximum -/

/-- What the scratch column holds after the body at position `n`: the body's one arithmetic payload of the two tiles
    and of what the scratch held before — the -∞ column at the first column tile, else what position `n - 1` left. -/
def accAt (c : Dev nD) : (n : ℕ) → n < cfg0.N → Vec F S2048x1 .f32
  | 0, hn => k0_pay2 (grid0.coords ⟨0, hn⟩) (rowTile m c ⟨0, hn⟩) (colTile m c ⟨0, hn⟩) (k0_pay1 (F := F))
  | n + 1, hn => k0_pay2 (grid0.coords ⟨n + 1, hn⟩) (rowTile m c ⟨n + 1, hn⟩) (colTile m c ⟨n + 1, hn⟩)
      (if (n + 1) % 8 = 0 then k0_pay1 (F := F) else accAt c n (Nat.lt_of_succ_lt hn))

/-- At a first column tile the running maximum starts from the -∞ column. -/
theorem accAt_reset (c : Dev nD) (t : Fin cfg0.N) (h : t.val % 8 = 0) :
    accAt m c t.val t.isLt = k0_pay2 (grid0.coords t) (rowTile m c t) (colTile m c t) (k0_pay1 (F := F)) := by
  obtain ⟨n, hn⟩ := t
  cases n with
  | zero => rfl
  | succ n => exact (show accAt m c (n + 1) hn = k0_pay2 _ _ _ (if (n + 1) % 8 = 0 then k0_pay1 (F := F) else accAt m c n (Nat.lt_of_succ_lt hn)) from rfl).trans (by rw [if_pos h])

/-- At a later column tile it continues from what the point before left. -/
theorem accAt_step (c : Dev nD) (t : Fin cfg0.N) (h : ¬t.val % 8 = 0) :
    accAt m c t.val t.isLt = k0_pay2 (grid0.coords t) (rowTile m c t) (colTile m c t)
      (accAt m c (t.val - 1) (Nat.lt_of_le_of_lt (Nat.sub_le _ _) t.isLt)) := by
  obtain ⟨n, hn⟩ := t
  cases n with
  | zero => exact absurd (Nat.zero_mod _) h
  | succ n => exact (show accAt m c (n + 1) hn = k0_pay2 _ _ _ (if (n + 1) % 8 = 0 then k0_pay1 (F := F) else accAt m c n (Nat.lt_of_succ_lt hn)) from rfl).trans (by rw [if_neg h]; rfl)

/-! ## The region invariant: the scratch column, tracked -/

/-- Before the first point the scratch holds anything; before position `n + 1` it holds what position `n` left. -/
def PhiS (c : Dev nD) : (n : ℕ) → n ≤ cfg0.N → sProp 𝕄
  | 0, _ => iprop(∃ d, owns (c : Thread nD τ) scM fullShare d)
  | n + 1, hn => owns (c : Thread nD τ) scM fullShare (accAt m c n hn)

theorem PhiS_zero (c : Dev nD) (n : ℕ) (h : n ≤ cfg0.N) (hz : n = 0) :
    PhiS m c n h = iprop(∃ d, owns (c : Thread nD τ) scM fullShare d) := by subst hz; rfl
theorem PhiS_succ (c : Dev nD) (n : ℕ) (hn : n < cfg0.N) :
    PhiS m c (n + 1) hn = owns (c : Thread nD τ) scM fullShare (accAt m c n hn) := rfl
theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The proof data -/

/-- The arrays as the region finds them; the inputs' buffers left at their blocks, the output's at the carried
    maximum; the array of normalised rows dealt in halves between the two windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem Phi_castSucc (c : Dev nD) (t : Fin cfg0.N) :
    (dats m 0 c).Φ t.castSucc = PhiS m c t.val (Nat.le_of_lt t.isLt) := by
  dsimp only [dats]; simp only [Fin.coe_castSucc]
theorem Phi_succ (c : Dev nD) (t : Fin cfg0.N) :
    (dats m 0 c).Φ t.succ = PhiS m c (t.val + 1) t.isLt := rfl
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = accAt m c t.val t.isLt := by dsimp only [dats]
theorem q0 (c : Dev nD) : (dats m 0 c).q 0 = fullShare.left := by dsimp only [dats]
theorem q1 (c : Dev nD) : (dats m 0 c).q 1 = fullShare.right := by dsimp only [dats]
theorem owed_zero (c : Dev nD) (t : Fin (cfg0.N + 1)) : (dats m 0 c).owed t = 0 := rfl

/-- Each input's current staging buffer holds its block at every point, fetched there or not: unfetched, the block
    index has not moved since the point before, and the body left the block in place. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-! ## The buffers the closing host lines start from -/

/-- The region's exit contents: the output column at what the write-backs left, every other buffer as at entry. -/
def Vexit (c : Dev nD) : Valuation τ sig (Elt F) :=
  (StableHlo.nullary (τ := τ) main_v6 ((dats m 0 c).arrAt 2 cfg0.N)).result (V0 m c)

end Cert.Kernel.Hand

end
-- ==== Proof.KernelBody.lean ====
/-
  The body obligation of the region: at every grid point, from the scratch column as the point before left it and
  the three staging buffers as the pipeline hands them, the kernel body runs to the scratch column at this point's
  running maximum and the buffers as the proof data says.
-/
import proofs.«138519_j13924283973723_1_alg».proof.Proof.KernelData
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl

section ReadBack

variable {κ : Kind} {sp : Space} {S : Shape} {e : EltTy}

/-- A load through the whole-shape rectangle at zero offsets of a whole memref holding `X` reads `X`. -/
theorem readAt_whole (M : Memref sig κ sp S e) (hM : M.IsWhole) {off : Fin S.rank → Nat} (h : off = fun _ => 0)
    (inb : ∀ a, off a + S.size a ≤ S.size a) (X : S.Idx → Elt F e) :
    View.readAt (Elt F) M.view (Rect.unit off S.size inb).toLoadRect (hM.unread X) = X := by
  rw [View.readAt_eq_ld, hM.read_unread, View.ld_unit_zero h]

/-- One store through it leaves its payload, whatever the buffer held. -/
theorem read_store_whole (M : Memref sig κ sp S e) (f : M.view.ty.Contents (Elt F)) {off : Fin S.rank → Nat} (h : off = fun _ => 0)
    (inb : ∀ a, off a + S.size a ≤ S.size a) (w : S.Idx → Elt F e) (L : List (View.Piece (Elt F) S e)) :
    M.view.read (Elt F) (M.view.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-- A load through it of what one store through it left reads the payload. -/
theorem readCov_whole (M : Memref sig κ sp S e) {off : Fin S.rank → Nat} (h : off = fun _ => 0)
    (inb : ∀ a, off a + S.size a ≤ S.size a) (w : S.Idx → Elt F e) :
    M.view.readCov [(⟨Rect.unit off S.size inb, w⟩ : View.Piece (Elt F) S e)] (Rect.unit off S.size inb).toLoadRect = w :=
  View.readCov_unit_zero M.view h inb w

end ReadBack

/-! ## The kernel function at a point of each kind, on any whole memrefs -/

set_option maxHeartbeats 1000000 in
/-- A first column tile, away from the last: the scratch column, held at anything, is reset to the -∞ column and ends at the
    payload of the two tiles and that column. -/
theorem run_reset (c : Dev nD) (i : grid0.Coords)
    (arg2 : Memref sig .tc .vmem S2048x1024 .bf16) (harg2 : arg2.IsWhole)
    (arg3 : Memref sig .tc .vmem S2048x1024 .bf16) (harg3 : arg3.IsWhole)
    (arg4 : Memref sig .tc .vmem S2048x1 .f32) (harg4 : arg4.IsWhole)
    (arg5 : Memref sig .tc .vmem S2048x1 .f32) (harg5 : arg5.IsWhole)
    (hc0 : condReset i) (hc1 : ¬condOut i)
    (x0 x1 : Vec F S2048x1024 .bf16)
    (E : Set ℕ) (K : PUnit → sProp 𝕄) :
    iprop(owns (c : Thread nD τ) arg2 fullShare x0 ∗ owns (c : Thread nD τ) arg3 fullShare x1
        ∗ (∃ d, owns (c : Thread nD τ) arg5 fullShare d)
        ∗ (iprop(owns (c : Thread nD τ) arg2 fullShare x0 ∗ owns (c : Thread nD τ) arg3 fullShare x1
            ∗ owns (c : Thread nD τ) arg5 fullShare (k0_pay2 i x0 x1 (k0_pay1 (F := F)))) -∗ K ⟨⟩))
      ⊢ wp frame (wpE (defs₀ (F := F)) Variants.none c none) E
          (cc0__koleo_max_sim_kernel i arg2 harg2 arg3 harg3 arg4 harg4 arg5 harg5) K := by
  simp only [cc0__koleo_max_sim_kernel_eq_skeleton]; unfold cc0__koleo_max_sim_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  exact (read_store_whole arg5 _ hz2 _ _ _).trans
    (congr (congr (congrArg (k0_pay2 i) (readAt_whole arg2 harg2 hz2 _ x0)) (readAt_whole arg3 harg3 hz2 _ x1))
      (readCov_whole arg5 hz2 _ _))

set_option maxHeartbeats 1000000 in
/-- A point that neither resets nor writes out: the scratch column, held at `xs`, ends at the payload of the two tiles and `xs`. -/
theorem run_step (c : Dev nD) (i : grid0.Coords)
    (arg2 : Memref sig .tc .vmem S2048x1024 .bf16) (harg2 : arg2.IsWhole)
    (arg3 : Memref sig .tc .vmem S2048x1024 .bf16) (harg3 : arg3.IsWhole)
    (arg4 : Memref sig .tc .vmem S2048x1 .f32) (harg4 : arg4.IsWhole)
    (arg5 : Memref sig .tc .vmem S2048x1 .f32) (harg5 : arg5.IsWhole)
    (hc0 : ¬condReset i) (hc1 : ¬condOut i)
    (x0 x1 : Vec F S2048x1024 .bf16) (xs : Vec F S2048x1 .f32)
    (E : Set ℕ) (K : PUnit → sProp 𝕄) :
    iprop(owns (c : Thread nD τ) arg2 fullShare x0 ∗ owns (c : Thread nD τ) arg3 fullShare x1
        ∗ owns (c : Thread nD τ) arg5 fullShare xs
        ∗ (iprop(owns (c : Thread nD τ) arg2 fullShare x0 ∗ owns (c : Thread nD τ) arg3 fullShare x1
            ∗ owns (c : Thread nD τ) arg5 fullShare (k0_pay2 i x0 x1 xs)) -∗ K ⟨⟩))
      ⊢ wp frame (wpE (defs₀ (F := F)) Variants.none c none) E
          (cc0__koleo_max_sim_kernel i arg2 harg2 arg3 harg3 arg4 harg4 arg5 harg5) K := by
  simp only [cc0__koleo_max_sim_kernel_eq_skeleton]; unfold cc0__koleo_max_sim_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  exact (read_store_whole arg5 _ hz2 _ _ []).trans
    (congr (congr (congrArg (k0_pay2 i) (readAt_whole arg2 harg2 hz2 _ x0)) (readAt_whole arg3 harg3 hz2 _ x1))
      (readAt_whole arg5 harg5 hz2 _ xs))

set_option maxHeartbeats 1000000 in
/-- A last column tile (never a first): the scratch column, held at `xs`, ends at the payload of the two tiles and `xs`,
    and the output block, held at anything, at the same column. -/
theorem run_out (c : Dev nD) (i : grid0.Coords)
    (arg2 : Memref sig .tc .vmem S2048x1024 .bf16) (harg2 : arg2.IsWhole)
    (arg3 : Memref sig .tc .vmem S2048x1024 .bf16) (harg3 : arg3.IsWhole)
    (arg4 : Memref sig .tc .vmem S2048x1 .f32) (harg4 : arg4.IsWhole)
    (arg5 : Memref sig .tc .vmem S2048x1 .f32) (harg5 : arg5.IsWhole)
    (hc0 : ¬condReset i) (hc1 : condOut i)
    (x0 x1 : Vec F S2048x1024 .bf16) (xs : Vec F S2048x1 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k0_pay2 i x0 x1 xs)
            ∗ owns (c : Thread nD τ) arg5 fullShare (k0_pay2 i x0 x1 xs)) -∗ K ⟨⟩))
      ⊢ wp frame (wpE (defs₀ (F := F)) Variants.none c none) E
          (cc0__koleo_max_sim_kernel i arg2 harg2 arg3 harg3 arg4 harg4 arg5 harg5) K := by
  simp only [cc0__koleo_max_sim_kernel_eq_skeleton]; unfold cc0__koleo_max_sim_kernel_skel
  unfold owns
  iintro ⟨⟨%f0, %hf0, H0⟩, ⟨%f1, %hf1, H1⟩, ⟨%d4, %f4, -, H4⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    exact (read_store_whole arg4 _ hz2 _ _ []).trans
      ((readCov_whole arg5 hz2 _ _).trans
        (congr (congr (congrArg (k0_pay2 i) (readAt_whole arg2 harg2 hz2 _ x0)) (readAt_whole arg3 harg3 hz2 _ x1))
          (readAt_whole arg5 harg5 hz2 _ xs)))
  iexists _; isplitr
  swap; · iexact HS
  ipureintro
  sl_unfold_words
  exact (read_store_whole arg5 _ hz2 _ _ []).trans
    (congr (congr (congrArg (k0_pay2 i) (readAt_whole arg2 harg2 hz2 _ x0)) (readAt_whole arg3 harg3 hz2 _ x1))
      (readAt_whole arg5 harg5 hz2 _ xs))

/-! ## The body obligation, at a generic point -/

/-- What the body is called with at point `t`: the invariant, what the core owes, and the three windows' current
    staging buffers as the pipeline hands them. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- And what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

/-- Before any point the invariant holds the scratch column at some contents. -/
theorem PhiS_any (c : Dev nD) (n : ℕ) (h : n ≤ cfg0.N) :
    PhiS m c n h ⊢ iprop(∃ d, owns (c : Thread nD τ) scM fullShare d) := by
  by_cases hz : n = 0
  · rw [PhiS_zero m c n h hz]
  · rw [PhiS_pos m c n h hz]; iintro H; iexists _; iexact H

set_option maxHeartbeats 4000000 in
/-- The body at any point. The two input buffers hold their tiles. At a first column tile the scratch column, whatever
    it holds, is reset and ends at the running maximum started from -∞; at a later one it holds what the point before
    left and ends at the maximum continued from it. The output buffer is handed back untouched away from the last
    column tile, where it is idle and not written back, and ends at the scratch column's contents at the last one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [Phi_succ m c t, PhiS_succ, Phi_castSucc m c t]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [live0], after0]
  rw [show (dats m 0 c).leavesExact 1 t = owns (c : Thread nD τ) (ms1 t) fullShare ((dats m 0 c).after 1 t) from by
    unfold Dat.leavesExact; rw [live1], after1]
  by_cases h0 : t.val % 8 = 0
  · have hr : condReset (grid0.coords t) := (hcondReset t).mpr h0
    have ho : ¬condOut (grid0.coords t) := fun h => by have := (hcondOut t).mp h; omega
    rw [Dat.leavesExact_idle (dats m 0 c) 2 t (idle2 t ho) (noFlush2 t ho)]
    rw [accAt_reset m c t h0]
    iintro ⟨HS, Ho, ⟨%d0, H0⟩, ⟨%d1, H1⟩, H2⟩
    iapply (run_reset c (grid0.coords t) (ms0 t) (hs0 t) (ms1 t) (hs1 t) (ms2 t) (hs2 t) scM (Memref.isWhole_whole _)
      hr ho (rowTile m c t) (colTile m c t) Set.univ _)
    isplitl [H0]; · iexact H0
    isplitl [H1]; · iexact H1
    isplitl [HS]; · iapply (PhiS_any m c _ _); iexact HS
    iintro ⟨H0, H1, HS⟩
    isplitl [HS]; · iexact HS
    isplitl [Ho]; · iexact Ho
    isplitl [H0]; · iexact H0
    isplitl [H1]; · iexact H1
    iexact H2
  · have hr : ¬condReset (grid0.coords t) := fun h => h0 ((hcondReset t).mp h)
    have hz : t.val ≠ 0 := fun h => h0 (by rw [h])
    rw [PhiS_pos m c _ _ hz]
    by_cases h1 : t.val % 8 = 7
    · have ho : condOut (grid0.coords t) := (hcondOut t).mpr h1
      rw [show (dats m 0 c).leavesExact 2 t = owns (c : Thread nD τ) (ms2 t) fullShare ((dats m 0 c).after 2 t) from by
        unfold Dat.leavesExact; rw [live2 t ho], after2]
      rw [accAt_step m c t h0]
      iintro ⟨HS, Ho, ⟨%d0, H0⟩, ⟨%d1, H1⟩, ⟨%d2, H2⟩⟩
      iapply (run_out c (grid0.coords t) (ms0 t) (hs0 t) (ms1 t) (hs1 t) (ms2 t) (hs2 t) scM (Memref.isWhole_whole _)
        hr ho (rowTile m c t) (colTile m c t) _ Set.univ _)
      isplitl [H0]; · iexact H0
      isplitl [H1]; · iexact H1
      isplitl [H2]; · iexists _; iexact H2
      isplitl [HS]; · iexact HS
      iintro ⟨H0, H1, H2, HS⟩
      isplitl [HS]; · iexact HS
      isplitl [Ho]; · iexact Ho
      isplitl [H0]; · iexact H0
      isplitl [H1]; · iexact H1
      iexact H2
    · have ho : ¬condOut (grid0.coords t) := fun h => h1 ((hcondOut t).mp h)
      rw [Dat.leavesExact_idle (dats m 0 c) 2 t (idle2 t ho) (noFlush2 t ho)]
      rw [accAt_step m c t h0]
      iintro ⟨HS, Ho, ⟨%d0, H0⟩, ⟨%d1, H1⟩, H2⟩
      iapply (run_step c (grid0.coords t) (ms0 t) (hs0 t) (ms1 t) (hs1 t) (ms2 t) (hs2 t) scM (Memref.isWhole_whole _)
        hr ho (rowTile m c t) (colTile m c t) _ Set.univ _)
      isplitl [H0]; · iexact H0
      isplitl [H1]; · iexact H1
      isplitl [HS]; · iexact HS
      iintro ⟨H0, H1, HS⟩
      isplitl [HS]; · iexact HS
      isplitl [Ho]; · iexact Ho
      isplitl [H0]; · iexact H0
      isplitl [H1]; · iexact H1
      iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KernelLaunch.lean ====
/-
  The launch: @main is two host stretches, the region, and seventeen closing host lines. The run ends with the result
  at the closing lines applied to the region's exit contents, and the argument unchanged.
-/
import proofs.«138519_j13924283973723_1_alg».proof.Proof.KernelBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays: two buffers behind three windows -/

/-- The buffers behind the three windows are the array of normalised rows and the output column. -/
private theorem launch_arrImage : (Finset.univ.image (Pipeline.arrRef spec0) : Finset (Ref sig .tc)) = {main_v5, main_v6} := by decide

/-- The two buffers held whole, spelled out. -/
private theorem launch_arrBufs_eq (c : Dev nD) (Wv : (b : Ref sig .tc) → Buf (Elt F) ((c.tc : Thread nD τ).loc b)) :
    (Pipeline.arrBufs spec0 c Wv : sProp 𝕄)
      = iprop((((c.tc : Thread nD τ).loc main_v5) ↦{fullShare} Wv main_v5) ∗ (((c.tc : Thread nD τ).loc main_v6) ↦{fullShare} Wv main_v6)) := by
  unfold Pipeline.arrBufs
  rw [launch_arrImage, bigSep_insert (by decide), bigSep_singleton]
  rfl

/-- The two windows on the array of normalised rows hold its two halves; the output window holds its column whole. -/
private theorem launch_share0 (c : Dev nD) : (dats m 0 c).share 0 = fullShare.left := by
  unfold Dat.share; exact (if_neg (by decide)).trans (q0 m c)
private theorem launch_share1 (c : Dev nD) : (dats m 0 c).share 1 = fullShare.right := by
  unfold Dat.share; exact (if_neg (by decide)).trans (q1 m c)
private theorem launch_share2 (c : Dev nD) : (dats m 0 c).share 2 = fullShare := by
  unfold Dat.share; exact if_pos (by decide)

/-- The proof data's arrays at contents that agree with a valuation of the two buffers: the array of normalised rows
    is dealt in halves to the two windows that read it, the output column is held whole. -/
private theorem launch_arrays_iff (c : Dev nD) (Wv : (b : Ref sig .tc) → Buf (Elt F) ((c.tc : Thread nD τ).loc b))
    (Fw : (w : Fin cfg0.W) → Buf (Elt F) ((cfg0.win w).arr.view.loc (c.tc : Thread nD τ)))
    (h0 : Fw 0 = Wv main_v5) (h1 : Fw 1 = Wv main_v5) (h2 : Fw 2 = Wv main_v6) :
    (Pipeline.arrBufs spec0 c Wv : sProp 𝕄) ⊣⊢ (dats m 0 c).arrays Fw := by
  have e0 : (cfg0.win 0).arr.view.set = Finset.univ := (arr_whole0 0).set_eq_univ
  have e2 : (cfg0.win 2).arr.view.set = Finset.univ := (arr_whole0 2).set_eq_univ
  rw [launch_arrBufs_eq]
  unfold Dat.arrays
  rw [bigSep_W0, h0, h1, h2, e0, e2, launch_share0, launch_share1, launch_share2]
  constructor
  · iintro ⟨H5, H6⟩
    ihave H5 := (pointsTo_share (PosShare.mem_left_op_right fullShare)).1 $$ H5
    icases H5 with ⟨Ha, Hb⟩
    isplitl [Ha]; · iexact Ha
    isplitl [Hb]; · iexact Hb
    iexact H6
  · iintro ⟨Ha, Hb, H6⟩
    isplitr [H6]
    · iapply (pointsTo_share (PosShare.mem_left_op_right fullShare)).2
      isplitl [Ha]; · iexact Ha
      iexact Hb
    · iexact H6

/-! ## What the host lines write -/

private theorem launch_hostOps0_fresh : (hostOps0 : List (HloOp τ sig (Elt F))).Forall fun op => op.fresh = ∅ := by
  simp only [List.Forall]; repeat' constructor
private theorem launch_hostOps0_1_fresh : (hostOps0_1 : List (HloOp τ sig (Elt F))).Forall fun op => op.fresh = ∅ := by
  simp only [List.Forall]; repeat' constructor
private theorem launch_hostOps1_fresh : (hostOps1 : List (HloOp τ sig (Elt F))).Forall fun op => op.fresh = ∅ := by
  simp only [List.Forall]; repeat' constructor

/-- The references the lines before the region write: the row norms' chain, then the clamp, the quotient and the narrowing. -/
private abbrev launch_W0 : List (Ref sig .tc) := [main_call0_v0, main_call0_cst, main_call0_v1, main_call0_v2, main_v0]
private abbrev launch_W0_1 : List (Ref sig .tc) := [main_cst, main_v1, main_v2, main_v3, main_v4, main_v5]
/-- The references the seventeen closing lines write. -/
private abbrev launch_W1 : List (Ref sig .tc) :=
  [main_v7, main_cst_0, main_v8, main_v9, main_cst_1, main_v10, main_v11, main_cst_2, main_v12, main_v13, main_v14, main_v15,
   main_cst_3, main_v16, main_cst_4, main_v17, main_v18]

private theorem launch_hostOps0_writes : (hostOps0 : List (HloOp τ sig (Elt F))).Forall fun op => op.writes ⊆ (launch_W0.map (Proc.devRef (τ := τ) .tc)).toFinset := by
  simp only [List.Forall, StableHlo.TRef.binary, StableHlo.TRef.nullary, StableHlo.TRef.unary, StableHlo.nullary_writes, StableHlo.unary_writes, StableHlo.binary_writes, Finset.singleton_subset_iff, List.mem_toFinset]
  repeat' constructor
  all_goals exact List.mem_map_of_mem (by decide)
private theorem launch_hostOps0_1_writes : (hostOps0_1 : List (HloOp τ sig (Elt F))).Forall fun op => op.writes ⊆ (launch_W0_1.map (Proc.devRef (τ := τ) .tc)).toFinset := by
  simp only [List.Forall, StableHlo.nullary_writes, StableHlo.unary_writes, StableHlo.binary_writes, Finset.singleton_subset_iff, List.mem_toFinset]
  repeat' constructor
  all_goals exact List.mem_map_of_mem (by decide)
private theorem launch_hostOps1_writes : (hostOps1 : List (HloOp τ sig (Elt F))).Forall fun op => op.writes ⊆ (launch_W1.map (Proc.devRef (τ := τ) .tc)).toFinset := by
  simp only [List.Forall, StableHlo.nullary_writes, StableHlo.unary_writes, StableHlo.binary_writes, StableHlo.reshape_writes, Finset.singleton_subset_iff, List.mem_toFinset]
  repeat' constructor
  all_goals exact List.mem_map_of_mem (by decide)

/-- A buffer the lines before the region do not write enters the region as launched. -/
private theorem launch_V0_of (c : Dev nD) (r : Ref sig .tc) (h0 : r ∉ launch_W0) (h1 : r ∉ launch_W0_1) :
    V0 m c (Proc.devRef .tc r) = m (c, Proc.devRef .tc r) := by
  unfold V0
  rw [List.flatten_cons, List.flatten_cons, List.flatten_nil, List.append_nil, StableHlo.after_append,
    StableHlo.after_of_writes_sub hostOps0_1 _ launch_hostOps0_1_writes h1, StableHlo.after_of_writes_sub hostOps0 _ launch_hostOps0_writes h0]

/-- The exit contents: the output column at what the write-backs left, -/
private theorem launch_Vexit_out (c : Dev nD) : Vexit m c (Proc.devRef .tc main_v6) = (dats m 0 c).arrAt 2 cfg0.N := by
  unfold Vexit; exact StableHlo.nullary_result _ _ _ _
/-- every other buffer as the region found it. -/
private theorem launch_Vexit_of (c : Dev nD) (r : Ref sig .tc) (h : r ≠ main_v6) : Vexit m c (Proc.devRef .tc r) = V0 m c (Proc.devRef .tc r) := by
  unfold Vexit; exact StableHlo.nullary_result_ne _ _ _ _ h
/-- A buffer the closing lines do not write ends at its exit contents. -/
private theorem launch_after1_of (c : Dev nD) (r : Ref sig .tc) (h : r ∉ launch_W1) :
    StableHlo.after hostOps1 (Vexit m c) (Proc.devRef .tc r) = Vexit m c (Proc.devRef .tc r) :=
  StableHlo.after_of_writes_sub hostOps1 _ launch_hostOps1_writes h

/-! ## The closing lines -/

/-- Both buffers behind the windows, at any contents that have the array of normalised rows as the region found it and
    the output column at what the write-backs left, are the proof data's arrays at the last point: an input array is
    never written. -/
private theorem launch_arrays_last (c : Dev nD) (W : Valuation τ sig (Elt F))
    (h5 : W (Proc.devRef .tc main_v5) = V0 m c (Proc.devRef .tc main_v5))
    (h6 : W (Proc.devRef .tc main_v6) = (dats m 0 c).arrAt 2 cfg0.N) :
    (Pipeline.arrBufs spec0 c (fun b => W (Proc.devRef .tc b)) : sProp 𝕄) ⊣⊢ (dats m 0 c).arrays ((dats m 0 c).arrAt · cfg0.N) :=
  launch_arrays_iff m c _ _ (((dats m 0 c).arrAt_in 0 rfl cfg0.N).trans h5.symm) (((dats m 0 c).arrAt_in 1 rfl cfg0.N).trans h5.symm) h6.symm

/-- The unscoped buffers held at a valuation are the two buffers behind the windows and the rest. -/
private theorem launch_held_split_arr (c : Dev nD) (W : Valuation τ sig (Elt F)) :
    (StableHlo.held (c.tc : Thread nD τ) (Pipeline.ucRefs τ sig) W : sProp 𝕄)
      = iprop(Pipeline.arrBufs spec0 c (fun b => W (Proc.devRef .tc b)) ∗ Pipeline.unscopedRest spec0 c (fun b => W (Proc.devRef .tc b))) := by
  rw [← Pipeline.unscopedBufs_held, Pipeline.unscopedBufs_split₀ cfgs 0 winFacts₀0.arr_unscoped]

/-- From the region's exit — the boundary, the arrays at their last contents, every other unscoped buffer as the region
    found it — the seventeen closing lines run within the unscoped buffers, write neither array, and hand back the arrays
    and the other buffers at the lines' values from the exit contents. -/
private theorem launch_tail_lines (c : Dev nD) (Q' : PUnit → sProp 𝕄) :
    iprop((iprop((dats m 0 c).arrays ((dats m 0 c).arrAt · cfg0.N)
              ∗ Pipeline.unscopedRest spec0 c (fun b => StableHlo.after hostOps1 (Vexit m c) (Proc.devRef .tc b))) -∗ Q' ⟨⟩)
        ∗ boundary (c.tc : Thread nD τ) ∗ (dats m 0 c).arrays ((dats m 0 c).arrAt · cfg0.N)
        ∗ Pipeline.unscopedRest spec0 c (fun b => V m c b))
      ⊢ wp frame (wpE (Pipeline.defs (fun q => (cfgs q).toPCfg) (defs₀ (F := F))) (Variants.lift Variants.none) (c.tc : Thread nD τ) none) Set.univ
          (Pipeline.chain ([hostOps1].map StableHlo.seq)) Q' := by
  classical
  -- the exit contents differ from the entry contents at the output column only, which is no buffer of the rest
  have hR : (Pipeline.unscopedRest spec0 c (fun b => V m c b) : sProp 𝕄)
      = Pipeline.unscopedRest spec0 c (fun b => Vexit m c (Proc.devRef .tc b)) := by
    unfold Pipeline.unscopedRest
    exact bigSep_congr fun b hb => by
      beta_reduce
      rw [launch_Vexit_of m c b fun e => (Finset.mem_sdiff.mp hb).2 (e ▸ Finset.mem_image.mpr ⟨2, Finset.mem_univ _, rfl⟩)]
  have hS : ∀ ops ∈ [hostOps1 (F := F)], ∀ op ∈ ops, op.bufs ⊆ Pipeline.ucRefs τ sig := fun ops ho op h => by
    obtain rfl := List.mem_singleton.mp ho
    exact Pipeline.sub_ucRefs op ((List.forall_iff_forall_mem.mp hostOps1_sub) op h)
  have hf : ∀ ops ∈ [hostOps1 (F := F)], ∀ op ∈ ops, op.fresh = ∅ := fun ops ho op h => by
    obtain rfl := List.mem_singleton.mp ho
    exact (List.forall_iff_forall_mem.mp launch_hostOps1_fresh) op h
  rw [hR, ← List.append_nil ([hostOps1].map StableHlo.seq)]
  iintro ⟨Hk, Hb, HA, HZ⟩
  ihave HA := (launch_arrays_last m c (Vexit m c) (launch_Vexit_of m c main_v5 (by decide)) (launch_Vexit_out m c)).2 $$ HA
  iapply (Pipeline.wp_seqs_then (fun q => (cfgs q).toPCfg) defs₀ Variants.none c (Pipeline.ucRefs τ sig) [] [hostOps1] hS hf (Vexit m c)) $$ [Hb HA HZ]
  · rw [launch_held_split_arr]
    isplitl [Hb]; · iexact Hb
    isplitl [HA]; · iexact HA
    iexact HZ
  iintro H
  rw [Pipeline.chain_nil, wp_pure, List.flatten_cons, List.flatten_nil, List.append_nil, launch_held_split_arr]
  imodintro
  icases H with ⟨-, HA, HZ⟩
  ihave HA := (launch_arrays_last m c (StableHlo.after hostOps1 (Vexit m c))
    ((launch_after1_of m c main_v5 (by decide)).trans (launch_Vexit_of m c main_v5 (by decide)))
    ((launch_after1_of m c main_v6 (by decide)).trans (launch_Vexit_out m c))).1 $$ HA
  iapply Hk
  isplitl [HA]; · iexact HA
  iexact HZ

/-! ## The invariant at the two ends: the scratch column -/

/-- The one scoped buffer that is no staging buffer is the scratch column: held at anything, it is the invariant
    before the first point. -/
private theorem launch_inv_in (c : Dev nD) (X P : sProp 𝕄) :
    iprop(X ∗ P ∗ Pipeline.scopedRest spec0 c) ⊢ (dats m 0 c).Φ 0 := by
  rw [scopedRest0_eq, show (dats m 0 c).Φ 0 = iprop(∃ d, owns (c : Thread nD τ) scM fullShare d) from PhiS_zero m c 0 (Nat.zero_le _) rfl]
  iintro ⟨-, -, ⟨%f, H⟩⟩
  iexists f
  rw [owns_whole]
  iexact H

/-- After the last point the invariant holds the scratch column at the last carried maximum: a scoped buffer at some
    contents again. -/
private theorem launch_inv_out (c : Dev nD) :
    (dats m 0 c).Φ (Fin.last cfg0.N) ⊢ iprop((emp : sProp 𝕄) ∗ Pipeline.scopedRest spec0 c) := by
  rw [scopedRest0_eq, show (dats m 0 c).Φ (Fin.last cfg0.N) = _ from PhiS_pos m c cfg0.N le_rfl (by rw [show cfg0.N = 64 from N_0]; decide), owns_whole]
  iintro H
  isplitr
  · iempintro
  · iexists _; iexact H

/-! ## The run -/

/-- The unscoped buffers that are no window's array. -/
private abbrev launch_restSet : Finset (Ref sig .tc) :=
  (Finset.univ.filter fun b : Ref sig .tc => ¬ b.isScoped) \ Finset.univ.image (Pipeline.arrRef spec0)

/-- Every weakly fair execution of @main terminates without a fault; the result buffer ends at the closing host
    lines' value from the region's exit contents, and the argument array is unchanged. -/
theorem run_main : θ_run defs (onTc (τ := τ) (main (F := F))) ⟨m, fun _ => 0, ρ⟩ (fun r => ∀ c : Dev nD,
      r.2.mem ((c.tc : Thread nD τ).loc main_v18) = StableHlo.after hostOps1 (Vexit m c) (Proc.devRef .tc main_v18)
      ∧ r.2.mem ((c.tc : Thread nD τ).loc main_arg0) = m ((c.tc : Thread nD τ).loc main_arg0)) := by
  classical
  refine Pipeline.θ_run_region_noSem_pf_tail (fun q => (cfgs q).toPCfg) (fun q => (cfgs q).toPCfg_adm)
    (dats m) () cellOf_inj 0 winFacts₀0 (Pipeline.PreFacts.none _) emb₁ defs₀ Variants.none m ρ main
    (fun _ => Pipeline.chain ([hostOps1].map StableHlo.seq))
    (fun c => (body_obligation m c).loose)
    block_pos0 arr_whole0 stage_whole0 (fun _ _ => rfl)
    (u₀ := initOf (Pipeline.cells (Pipeline.pin (fun q => (cfgs q).toPCfg) (fun q => (cfgs q).toPCfg_adm)) cellOf_inj) (Pipeline.launchToks (Pipeline.pin (fun q => (cfgs q).toPCfg) (fun q => (cfgs q).toPCfg_adm)) cellOf_inj))
    (hu₀ := .rfl)
    (V := fun c b => V m c b)
    (hmain := Pipeline.hmain_around cfgs 0 defs₀ Variants.none m main [hostOps0, hostOps0_1] [hostOps1]
      ⟨hostOps0_sub, hostOps0_1_sub⟩ ⟨launch_hostOps0_fresh, launch_hostOps0_1_fresh⟩ main_chain)
    (hsplit := fun c => (launch_arrays_iff m c _ _ rfl rfl rfl).1)
    (hpf := fun _ k => k.elim0)
    (X := fun _ => iprop(emp)) (Y := fun _ => iprop(emp))
    (Z := fun c => Pipeline.unscopedRest spec0 c (fun b => V m c b))
    (Z' := fun c => Pipeline.unscopedRest spec0 c (fun b => StableHlo.after hostOps1 (Vexit m c) (Proc.devRef .tc b)))
    (hX := fun c => by
      rw [Pipeline.unscopedRestP_none]
      iintro H
      isplitr
      · iempintro
      · iexact H)
    (hin := fun c => launch_inv_in m c _ _)
    (hout := fun c => launch_inv_out m c)
    (htail := fun c Q' => launch_tail_lines m c Q')
    (QY := fun c s => ∀ b ∈ launch_restSet, s.mem ((c.tc : Thread nD τ).loc b) = StableHlo.after hostOps1 (Vexit m c) (Proc.devRef .tc b))
    (hY := fun c s' => by
      iintro ⟨-, HU, HSI⟩
      unfold Pipeline.unscopedRest
      imodintro
      iapply (pointsTo_read_all launch_restSet (fun b => (c.tc : Thread nD τ).loc b)
        (fun b => StableHlo.after hostOps1 (Vexit m c) (Proc.devRef .tc b)) s')
      isplitl [HU] <;> iassumption)
    (hQ := fun s h c => ⟨(h c).2.2 main_v18 (by decide), ((h c).2.2 main_arg0 (by decide)).trans
      ((launch_after1_of m c main_arg0 (by decide)).trans ((launch_Vexit_of m c main_arg0 (by decide)).trans (launch_V0_of m c main_arg0 (by decide) (by decide))))⟩)

end Cert.Kernel.Hand

end
-- ==== Proof.KernelIdealData.lean ====
/-
  The proof data of the one pipelined region, generic in the float instance.

  The grid has 64 points t = 8·i + j (row tile i, column tile j). Windows 0 and 1 both read the array of
  normalised rows, window 0 at row tile i and window 1 at row tile j; window 2 is the output column at row tile i.
  The scratch column carries, after point t, the running maximum over the column tiles 0..j of the masked Gram
  tile of row tile i: it is reset to -∞ when j = 0, and copied to the output block when j = 7.
-/
import proofs.«138519_j13924283973723_1_alg».proof.Proof.Gen.KernelIdeal.Launch
import proofs.«138519_j13924283973723_1_alg».proof.Proof.Gen.KernelIdeal.Skeleton
import proofs.«138519_j13924283973723_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffer contents when the region is entered: the launch memory after the two host stretches
    (the row norms, then the clamp, the quotient and the narrowing). -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row tile (window 0) and the column tile (window 1) of the normalised rows at point `t`, at their literal type. -/
abbrev rowTile (c : Dev nD) (t : Fin cfg0.N) : Vec F S2048x1024 .bf16 := iblk m c 0 t
abbrev colTile (c : Dev nD) (t : Fin cfg0.N) : Vec F S2048x1024 .bf16 := iblk m c 1 t

/-! ## The two branches, decided over the grid -/

/-- The reset branch is taken exactly when the column tile is the first. -/
abbrev condReset (i : grid0.Coords) : Prop :=
  (Scalar.cmpi .ne (Scalar.extui (Scalar.cmpi .eq (BitVec.ofNat 32 (i 1).val) 0#32)) 0#32) = 1#1
theorem hcondReset : ∀ t : Fin cfg0.N, condReset (grid0.coords t) ↔ t.val % 8 = 0 :=
  (by decide +kernel : ∀ t : Fin grid0.N, condReset (grid0.coords t) ↔ t.val % 8 = 0)

/-- The write-out branch is taken exactly when the column tile is the last. -/
abbrev condOut (i : grid0.Coords) : Prop := k0_cond2 i = 1#1
theorem hcondOut : ∀ t : Fin cfg0.N, condOut (grid0.coords t) ↔ t.val % 8 = 7 :=
  (by decide +kernel : ∀ t : Fin grid0.N, condOut (grid0.coords t) ↔ t.val % 8 = 7)

/-- The inputs are never idle; the output is idle, and not written back, away from the last column tile. -/
theorem live0 : ∀ i : grid0.Coords, cfg0.idle 0 i = false := fun _ => rfl
theorem live1 : ∀ i : grid0.Coords, cfg0.idle 1 i = false := fun _ => rfl
theorem idle2 : ∀ t : Fin cfg0.N, ¬condOut (grid0.coords t) → cfg0.idle 2 (grid0.coords t) = true := by decide +kernel
theorem noFlush2 : ∀ t : Fin cfg0.N, ¬condOut (grid0.coords t) → (cfg0.win 2).flush t = false := by decide +kernel
theorem live2 : ∀ t : Fin cfg0.N, condOut (grid0.coords t) → cfg0.idle 2 (grid0.coords t) = false := by decide +kernel

/-! ## The staging memrefs at a point, and the scratch -/

abbrev ms0 (t : Fin cfg0.N) : Memref sig .tc .vmem S2048x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1 .f32 := win0_2.stage (cfg0.slots t 2)
abbrev hs2 (t : Fin cfg0.N) : (ms2 t).IsWhole := hstage0_2 ((cfg0.slots t 2).cast nbuf0_2)
/-- The scratch column the kernel carries between points. -/
abbrev scM : Memref sig .tc .vmem S2048x1 .f32 := Memref.whole cc0_scratch0

/-! ## The carried maximum -/

/-- What the scratch column holds after the body at position `n`: the body's one arithmetic payload of the two tiles
    and of what the scratch held before — the -∞ column at the first column tile, else what position `n - 1` left. -/
def accAt (c : Dev nD) : (n : ℕ) → n < cfg0.N → Vec F S2048x1 .f32
  | 0, hn => k0_pay2 (grid0.coords ⟨0, hn⟩) (rowTile m c ⟨0, hn⟩) (colTile m c ⟨0, hn⟩) (k0_pay1 (F := F))
  | n + 1, hn => k0_pay2 (grid0.coords ⟨n + 1, hn⟩) (rowTile m c ⟨n + 1, hn⟩) (colTile m c ⟨n + 1, hn⟩)
      (if (n + 1) % 8 = 0 then k0_pay1 (F := F) else accAt c n (Nat.lt_of_succ_lt hn))

/-- At a first column tile the running maximum starts from the -∞ column. -/
theorem accAt_reset (c : Dev nD) (t : Fin cfg0.N) (h : t.val % 8 = 0) :
    accAt m c t.val t.isLt = k0_pay2 (grid0.coords t) (rowTile m c t) (colTile m c t) (k0_pay1 (F := F)) := by
  obtain ⟨n, hn⟩ := t
  cases n with
  | zero => rfl
  | succ n => exact (show accAt m c (n + 1) hn = k0_pay2 _ _ _ (if (n + 1) % 8 = 0 then k0_pay1 (F := F) else accAt m c n (Nat.lt_of_succ_lt hn)) from rfl).trans (by rw [if_pos h])

/-- At a later column tile it continues from what the point before left. -/
theorem accAt_step (c : Dev nD) (t : Fin cfg0.N) (h : ¬t.val % 8 = 0) :
    accAt m c t.val t.isLt = k0_pay2 (grid0.coords t) (rowTile m c t) (colTile m c t)
      (accAt m c (t.val - 1) (Nat.lt_of_le_of_lt (Nat.sub_le _ _) t.isLt)) := by
  obtain ⟨n, hn⟩ := t
  cases n with
  | zero => exact absurd (Nat.zero_mod _) h
  | succ n => exact (show accAt m c (n + 1) hn = k0_pay2 _ _ _ (if (n + 1) % 8 = 0 then k0_pay1 (F := F) else accAt m c n (Nat.lt_of_succ_lt hn)) from rfl).trans (by rw [if_neg h]; rfl)

/-! ## The region invariant: the scratch column, tracked -/

/-- Before the first point the scratch holds anything; before position `n + 1` it holds what position `n` left. -/
def PhiS (c : Dev nD) : (n : ℕ) → n ≤ cfg0.N → sProp 𝕄
  | 0, _ => iprop(∃ d, owns (c : Thread nD τ) scM fullShare d)
  | n + 1, hn => owns (c : Thread nD τ) scM fullShare (accAt m c n hn)

theorem PhiS_zero (c : Dev nD) (n : ℕ) (h : n ≤ cfg0.N) (hz : n = 0) :
    PhiS m c n h = iprop(∃ d, owns (c : Thread nD τ) scM fullShare d) := by subst hz; rfl
theorem PhiS_succ (c : Dev nD) (n : ℕ) (hn : n < cfg0.N) :
    PhiS m c (n + 1) hn = owns (c : Thread nD τ) scM fullShare (accAt m c n hn) := rfl
theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The proof data -/

/-- The arrays as the region finds them; the inputs' buffers left at their blocks, the output's at the carried
    maximum; the array of normalised rows dealt in halves between the two windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem Phi_castSucc (c : Dev nD) (t : Fin cfg0.N) :
    (dats m 0 c).Φ t.castSucc = PhiS m c t.val (Nat.le_of_lt t.isLt) := by
  dsimp only [dats]; simp only [Fin.coe_castSucc]
theorem Phi_succ (c : Dev nD) (t : Fin cfg0.N) :
    (dats m 0 c).Φ t.succ = PhiS m c (t.val + 1) t.isLt := rfl
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = accAt m c t.val t.isLt := by dsimp only [dats]
theorem q0 (c : Dev nD) : (dats m 0 c).q 0 = fullShare.left := by dsimp only [dats]
theorem q1 (c : Dev nD) : (dats m 0 c).q 1 = fullShare.right := by dsimp only [dats]
theorem owed_zero (c : Dev nD) (t : Fin (cfg0.N + 1)) : (dats m 0 c).owed t = 0 := rfl

/-- Each input's current staging buffer holds its block at every point, fetched there or not: unfetched, the block
    index has not moved since the point before, and the body left the block in place. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-! ## The buffers the closing host lines start from -/

/-- The region's exit contents: the output column at what the write-backs left, every other buffer as at entry. -/
def Vexit (c : Dev nD) : Valuation τ sig (Elt F) :=
  (StableHlo.nullary (τ := τ) main_v6 ((dats m 0 c).arrAt 2 cfg0.N)).result (V0 m c)

end Cert.KernelIdeal.Hand

end
-- ==== Proof.KernelIdealBody.lean ====
/-
  The body obligation of the region: at every grid point, from the scratch column as the point before left it and
  the three staging buffers as the pipeline hands them, the kernel body runs to the scratch column at this point's
  running maximum and the buffers as the proof data says.
-/
import proofs.«138519_j13924283973723_1_alg».proof.Proof.KernelIdealData
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl

section ReadBack

variable {κ : Kind} {sp : Space} {S : Shape} {e : EltTy}

/-- A load through the whole-shape rectangle at zero offsets of a whole memref holding `X` reads `X`. -/
theorem readAt_whole (M : Memref sig κ sp S e) (hM : M.IsWhole) {off : Fin S.rank → Nat} (h : off = fun _ => 0)
    (inb : ∀ a, off a + S.size a ≤ S.size a) (X : S.Idx → Elt F e) :
    View.readAt (Elt F) M.view (Rect.unit off S.size inb).toLoadRect (hM.unread X) = X := by
  rw [View.readAt_eq_ld, hM.read_unread, View.ld_unit_zero h]

/-- One store through it leaves its payload, whatever the buffer held. -/
theorem read_store_whole (M : Memref sig κ sp S e) (f : M.view.ty.Contents (Elt F)) {off : Fin S.rank → Nat} (h : off = fun _ => 0)
    (inb : ∀ a, off a + S.size a ≤ S.size a) (w : S.Idx → Elt F e) (L : List (View.Piece (Elt F) S e)) :
    M.view.read (Elt F) (M.view.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-- A load through it of what one store through it left reads the payload. -/
theorem readCov_whole (M : Memref sig κ sp S e) {off : Fin S.rank → Nat} (h : off = fun _ => 0)
    (inb : ∀ a, off a + S.size a ≤ S.size a) (w : S.Idx → Elt F e) :
    M.view.readCov [(⟨Rect.unit off S.size inb, w⟩ : View.Piece (Elt F) S e)] (Rect.unit off S.size inb).toLoadRect = w :=
  View.readCov_unit_zero M.view h inb w

end ReadBack

/-! ## The kernel function at a point of each kind, on any whole memrefs -/

set_option maxHeartbeats 1000000 in
/-- A first column tile, away from the last: the scratch column, held at anything, is reset to the -∞ column and ends at the
    payload of the two tiles and that column. -/
theorem run_reset (c : Dev nD) (i : grid0.Coords)
    (arg2 : Memref sig .tc .vmem S2048x1024 .bf16) (harg2 : arg2.IsWhole)
    (arg3 : Memref sig .tc .vmem S2048x1024 .bf16) (harg3 : arg3.IsWhole)
    (arg4 : Memref sig .tc .vmem S2048x1 .f32) (harg4 : arg4.IsWhole)
    (arg5 : Memref sig .tc .vmem S2048x1 .f32) (harg5 : arg5.IsWhole)
    (hc0 : condReset i) (hc1 : ¬condOut i)
    (x0 x1 : Vec F S2048x1024 .bf16)
    (E : Set ℕ) (K : PUnit → sProp 𝕄) :
    iprop(owns (c : Thread nD τ) arg2 fullShare x0 ∗ owns (c : Thread nD τ) arg3 fullShare x1
        ∗ (∃ d, owns (c : Thread nD τ) arg5 fullShare d)
        ∗ (iprop(owns (c : Thread nD τ) arg2 fullShare x0 ∗ owns (c : Thread nD τ) arg3 fullShare x1
            ∗ owns (c : Thread nD τ) arg5 fullShare (k0_pay2 i x0 x1 (k0_pay1 (F := F)))) -∗ K ⟨⟩))
      ⊢ wp frame (wpE (defs₀ (F := F)) Variants.none c none) E
          (cc0__koleo_max_sim_kernel i arg2 harg2 arg3 harg3 arg4 harg4 arg5 harg5) K := by
  simp only [cc0__koleo_max_sim_kernel_eq_skeleton]; unfold cc0__koleo_max_sim_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  exact (read_store_whole arg5 _ hz2 _ _ _).trans
    (congr (congr (congrArg (k0_pay2 i) (readAt_whole arg2 harg2 hz2 _ x0)) (readAt_whole arg3 harg3 hz2 _ x1))
      (readCov_whole arg5 hz2 _ _))

set_option maxHeartbeats 1000000 in
/-- A point that neither resets nor writes out: the scratch column, held at `xs`, ends at the payload of the two tiles and `xs`. -/
theorem run_step (c : Dev nD) (i : grid0.Coords)
    (arg2 : Memref sig .tc .vmem S2048x1024 .bf16) (harg2 : arg2.IsWhole)
    (arg3 : Memref sig .tc .vmem S2048x1024 .bf16) (harg3 : arg3.IsWhole)
    (arg4 : Memref sig .tc .vmem S2048x1 .f32) (harg4 : arg4.IsWhole)
    (arg5 : Memref sig .tc .vmem S2048x1 .f32) (harg5 : arg5.IsWhole)
    (hc0 : ¬condReset i) (hc1 : ¬condOut i)
    (x0 x1 : Vec F S2048x1024 .bf16) (xs : Vec F S2048x1 .f32)
    (E : Set ℕ) (K : PUnit → sProp 𝕄) :
    iprop(owns (c : Thread nD τ) arg2 fullShare x0 ∗ owns (c : Thread nD τ) arg3 fullShare x1
        ∗ owns (c : Thread nD τ) arg5 fullShare xs
        ∗ (iprop(owns (c : Thread nD τ) arg2 fullShare x0 ∗ owns (c : Thread nD τ) arg3 fullShare x1
            ∗ owns (c : Thread nD τ) arg5 fullShare (k0_pay2 i x0 x1 xs)) -∗ K ⟨⟩))
      ⊢ wp frame (wpE (defs₀ (F := F)) Variants.none c none) E
          (cc0__koleo_max_sim_kernel i arg2 harg2 arg3 harg3 arg4 harg4 arg5 harg5) K := by
  simp only [cc0__koleo_max_sim_kernel_eq_skeleton]; unfold cc0__koleo_max_sim_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  exact (read_store_whole arg5 _ hz2 _ _ []).trans
    (congr (congr (congrArg (k0_pay2 i) (readAt_whole arg2 harg2 hz2 _ x0)) (readAt_whole arg3 harg3 hz2 _ x1))
      (readAt_whole arg5 harg5 hz2 _ xs))

set_option maxHeartbeats 1000000 in
/-- A last column tile (never a first): the scratch column, held at `xs`, ends at the payload of the two tiles and `xs`,
    and the output block, held at anything, at the same column. -/
theorem run_out (c : Dev nD) (i : grid0.Coords)
    (arg2 : Memref sig .tc .vmem S2048x1024 .bf16) (harg2 : arg2.IsWhole)
    (arg3 : Memref sig .tc .vmem S2048x1024 .bf16) (harg3 : arg3.IsWhole)
    (arg4 : Memref sig .tc .vmem S2048x1 .f32) (harg4 : arg4.IsWhole)
    (arg5 : Memref sig .tc .vmem S2048x1 .f32) (harg5 : arg5.IsWhole)
    (hc0 : ¬condReset i) (hc1 : condOut i)
    (x0 x1 : Vec F S2048x1024 .bf16) (xs : Vec F S2048x1 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k0_pay2 i x0 x1 xs)
            ∗ owns (c : Thread nD τ) arg5 fullShare (k0_pay2 i x0 x1 xs)) -∗ K ⟨⟩))
      ⊢ wp frame (wpE (defs₀ (F := F)) Variants.none c none) E
          (cc0__koleo_max_sim_kernel i arg2 harg2 arg3 harg3 arg4 harg4 arg5 harg5) K := by
  simp only [cc0__koleo_max_sim_kernel_eq_skeleton]; unfold cc0__koleo_max_sim_kernel_skel
  unfold owns
  iintro ⟨⟨%f0, %hf0, H0⟩, ⟨%f1, %hf1, H1⟩, ⟨%d4, %f4, -, H4⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    exact (read_store_whole arg4 _ hz2 _ _ []).trans
      ((readCov_whole arg5 hz2 _ _).trans
        (congr (congr (congrArg (k0_pay2 i) (readAt_whole arg2 harg2 hz2 _ x0)) (readAt_whole arg3 harg3 hz2 _ x1))
          (readAt_whole arg5 harg5 hz2 _ xs)))
  iexists _; isplitr
  swap; · iexact HS
  ipureintro
  sl_unfold_words
  exact (read_store_whole arg5 _ hz2 _ _ []).trans
    (congr (congr (congrArg (k0_pay2 i) (readAt_whole arg2 harg2 hz2 _ x0)) (readAt_whole arg3 harg3 hz2 _ x1))
      (readAt_whole arg5 harg5 hz2 _ xs))

/-! ## The body obligation, at a generic point -/

/-- What the body is called with at point `t`: the invariant, what the core owes, and the three windows' current
    staging buffers as the pipeline hands them. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- And what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

/-- Before any point the invariant holds the scratch column at some contents. -/
theorem PhiS_any (c : Dev nD) (n : ℕ) (h : n ≤ cfg0.N) :
    PhiS m c n h ⊢ iprop(∃ d, owns (c : Thread nD τ) scM fullShare d) := by
  by_cases hz : n = 0
  · rw [PhiS_zero m c n h hz]
  · rw [PhiS_pos m c n h hz]; iintro H; iexists _; iexact H

set_option maxHeartbeats 4000000 in
/-- The body at any point. The two input buffers hold their tiles. At a first column tile the scratch column, whatever
    it holds, is reset and ends at the running maximum started from -∞; at a later one it holds what the point before
    left and ends at the maximum continued from it. The output buffer is handed back untouched away from the last
    column tile, where it is idle and not written back, and ends at the scratch column's contents at the last one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [Phi_succ m c t, PhiS_succ, Phi_castSucc m c t]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [live0], after0]
  rw [show (dats m 0 c).leavesExact 1 t = owns (c : Thread nD τ) (ms1 t) fullShare ((dats m 0 c).after 1 t) from by
    unfold Dat.leavesExact; rw [live1], after1]
  by_cases h0 : t.val % 8 = 0
  · have hr : condReset (grid0.coords t) := (hcondReset t).mpr h0
    have ho : ¬condOut (grid0.coords t) := fun h => by have := (hcondOut t).mp h; omega
    rw [Dat.leavesExact_idle (dats m 0 c) 2 t (idle2 t ho) (noFlush2 t ho)]
    rw [accAt_reset m c t h0]
    iintro ⟨HS, Ho, ⟨%d0, H0⟩, ⟨%d1, H1⟩, H2⟩
    iapply (run_reset c (grid0.coords t) (ms0 t) (hs0 t) (ms1 t) (hs1 t) (ms2 t) (hs2 t) scM (Memref.isWhole_whole _)
      hr ho (rowTile m c t) (colTile m c t) Set.univ _)
    isplitl [H0]; · iexact H0
    isplitl [H1]; · iexact H1
    isplitl [HS]; · iapply (PhiS_any m c _ _); iexact HS
    iintro ⟨H0, H1, HS⟩
    isplitl [HS]; · iexact HS
    isplitl [Ho]; · iexact Ho
    isplitl [H0]; · iexact H0
    isplitl [H1]; · iexact H1
    iexact H2
  · have hr : ¬condReset (grid0.coords t) := fun h => h0 ((hcondReset t).mp h)
    have hz : t.val ≠ 0 := fun h => h0 (by rw [h])
    rw [PhiS_pos m c _ _ hz]
    by_cases h1 : t.val % 8 = 7
    · have ho : condOut (grid0.coords t) := (hcondOut t).mpr h1
      rw [show (dats m 0 c).leavesExact 2 t = owns (c : Thread nD τ) (ms2 t) fullShare ((dats m 0 c).after 2 t) from by
        unfold Dat.leavesExact; rw [live2 t ho], after2]
      rw [accAt_step m c t h0]
      iintro ⟨HS, Ho, ⟨%d0, H0⟩, ⟨%d1, H1⟩, ⟨%d2, H2⟩⟩
      iapply (run_out c (grid0.coords t) (ms0 t) (hs0 t) (ms1 t) (hs1 t) (ms2 t) (hs2 t) scM (Memref.isWhole_whole _)
        hr ho (rowTile m c t) (colTile m c t) _ Set.univ _)
      isplitl [H0]; · iexact H0
      isplitl [H1]; · iexact H1
      isplitl [H2]; · iexists _; iexact H2
      isplitl [HS]; · iexact HS
      iintro ⟨H0, H1, H2, HS⟩
      isplitl [HS]; · iexact HS
      isplitl [Ho]; · iexact Ho
      isplitl [H0]; · iexact H0
      isplitl [H1]; · iexact H1
      iexact H2
    · have ho : ¬condOut (grid0.coords t) := fun h => h1 ((hcondOut t).mp h)
      rw [Dat.leavesExact_idle (dats m 0 c) 2 t (idle2 t ho) (noFlush2 t ho)]
      rw [accAt_step m c t h0]
      iintro ⟨HS, Ho, ⟨%d0, H0⟩, ⟨%d1, H1⟩, H2⟩
      iapply (run_step c (grid0.coords t) (ms0 t) (hs0 t) (ms1 t) (hs1 t) (ms2 t) (hs2 t) scM (Memref.isWhole_whole _)
        hr ho (rowTile m c t) (colTile m c t) _ Set.univ _)
      isplitl [H0]; · iexact H0
      isplitl [H1]; · iexact H1
      isplitl [HS]; · iexact HS
      iintro ⟨H0, H1, HS⟩
      isplitl [HS]; · iexact HS
      isplitl [Ho]; · iexact Ho
      isplitl [H0]; · iexact H0
      isplitl [H1]; · iexact H1
      iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdealLaunch.lean ====
/-
  The launch: @main is two host stretches, the region, and seventeen closing host lines. The run ends with the result
  at the closing lines applied to the region's exit contents, and the argument unchanged.
-/
import proofs.«138519_j13924283973723_1_alg».proof.Proof.KernelIdealBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays: two buffers behind three windows -/

/-- The buffers behind the three windows are the array of normalised rows and the output column. -/
private theorem launch_arrImage : (Finset.univ.image (Pipeline.arrRef spec0) : Finset (Ref sig .tc)) = {main_v5, main_v6} := by decide

/-- The two buffers held whole, spelled out. -/
private theorem launch_arrBufs_eq (c : Dev nD) (Wv : (b : Ref sig .tc) → Buf (Elt F) ((c.tc : Thread nD τ).loc b)) :
    (Pipeline.arrBufs spec0 c Wv : sProp 𝕄)
      = iprop((((c.tc : Thread nD τ).loc main_v5) ↦{fullShare} Wv main_v5) ∗ (((c.tc : Thread nD τ).loc main_v6) ↦{fullShare} Wv main_v6)) := by
  unfold Pipeline.arrBufs
  rw [launch_arrImage, bigSep_insert (by decide), bigSep_singleton]
  rfl

/-- The two windows on the array of normalised rows hold its two halves; the output window holds its column whole. -/
private theorem launch_share0 (c : Dev nD) : (dats m 0 c).share 0 = fullShare.left := by
  unfold Dat.share; exact (if_neg (by decide)).trans (q0 m c)
private theorem launch_share1 (c : Dev nD) : (dats m 0 c).share 1 = fullShare.right := by
  unfold Dat.share; exact (if_neg (by decide)).trans (q1 m c)
private theorem launch_share2 (c : Dev nD) : (dats m 0 c).share 2 = fullShare := by
  unfold Dat.share; exact if_pos (by decide)

/-- The proof data's arrays at contents that agree with a valuation of the two buffers: the array of normalised rows
    is dealt in halves to the two windows that read it, the output column is held whole. -/
private theorem launch_arrays_iff (c : Dev nD) (Wv : (b : Ref sig .tc) → Buf (Elt F) ((c.tc : Thread nD τ).loc b))
    (Fw : (w : Fin cfg0.W) → Buf (Elt F) ((cfg0.win w).arr.view.loc (c.tc : Thread nD τ)))
    (h0 : Fw 0 = Wv main_v5) (h1 : Fw 1 = Wv main_v5) (h2 : Fw 2 = Wv main_v6) :
    (Pipeline.arrBufs spec0 c Wv : sProp 𝕄) ⊣⊢ (dats m 0 c).arrays Fw := by
  have e0 : (cfg0.win 0).arr.view.set = Finset.univ := (arr_whole0 0).set_eq_univ
  have e2 : (cfg0.win 2).arr.view.set = Finset.univ := (arr_whole0 2).set_eq_univ
  rw [launch_arrBufs_eq]
  unfold Dat.arrays
  rw [bigSep_W0, h0, h1, h2, e0, e2, launch_share0, launch_share1, launch_share2]
  constructor
  · iintro ⟨H5, H6⟩
    ihave H5 := (pointsTo_share (PosShare.mem_left_op_right fullShare)).1 $$ H5
    icases H5 with ⟨Ha, Hb⟩
    isplitl [Ha]; · iexact Ha
    isplitl [Hb]; · iexact Hb
    iexact H6
  · iintro ⟨Ha, Hb, H6⟩
    isplitr [H6]
    · iapply (pointsTo_share (PosShare.mem_left_op_right fullShare)).2
      isplitl [Ha]; · iexact Ha
      iexact Hb
    · iexact H6

/-! ## What the host lines write -/

private theorem launch_hostOps0_fresh : (hostOps0 : List (HloOp τ sig (Elt F))).Forall fun op => op.fresh = ∅ := by
  simp only [List.Forall]; repeat' constructor
private theorem launch_hostOps0_1_fresh : (hostOps0_1 : List (HloOp τ sig (Elt F))).Forall fun op => op.fresh = ∅ := by
  simp only [List.Forall]; repeat' constructor
private theorem launch_hostOps1_fresh : (hostOps1 : List (HloOp τ sig (Elt F))).Forall fun op => op.fresh = ∅ := by
  simp only [List.Forall]; repeat' constructor

/-- The references the lines before the region write: the row norms' chain, then the clamp, the quotient and the narrowing. -/
private abbrev launch_W0 : List (Ref sig .tc) := [main_call0_v0, main_call0_cst, main_call0_v1, main_call0_v2, main_v0]
private abbrev launch_W0_1 : List (Ref sig .tc) := [main_cst, main_v1, main_v2, main_v3, main_v4, main_v5]
/-- The references the seventeen closing lines write. -/
private abbrev launch_W1 : List (Ref sig .tc) :=
  [main_v7, main_cst_0, main_v8, main_v9, main_cst_1, main_v10, main_v11, main_cst_2, main_v12, main_v13, main_v14, main_v15,
   main_cst_3, main_v16, main_cst_4, main_v17, main_v18]

private theorem launch_hostOps0_writes : (hostOps0 : List (HloOp τ sig (Elt F))).Forall fun op => op.writes ⊆ (launch_W0.map (Proc.devRef (τ := τ) .tc)).toFinset := by
  simp only [List.Forall, StableHlo.TRef.binary, StableHlo.TRef.nullary, StableHlo.TRef.unary, StableHlo.nullary_writes, StableHlo.unary_writes, StableHlo.binary_writes, Finset.singleton_subset_iff, List.mem_toFinset]
  repeat' constructor
  all_goals exact List.mem_map_of_mem (by decide)
private theorem launch_hostOps0_1_writes : (hostOps0_1 : List (HloOp τ sig (Elt F))).Forall fun op => op.writes ⊆ (launch_W0_1.map (Proc.devRef (τ := τ) .tc)).toFinset := by
  simp only [List.Forall, StableHlo.nullary_writes, StableHlo.unary_writes, StableHlo.binary_writes, Finset.singleton_subset_iff, List.mem_toFinset]
  repeat' constructor
  all_goals exact List.mem_map_of_mem (by decide)
private theorem launch_hostOps1_writes : (hostOps1 : List (HloOp τ sig (Elt F))).Forall fun op => op.writes ⊆ (launch_W1.map (Proc.devRef (τ := τ) .tc)).toFinset := by
  simp only [List.Forall, StableHlo.nullary_writes, StableHlo.unary_writes, StableHlo.binary_writes, StableHlo.reshape_writes, Finset.singleton_subset_iff, List.mem_toFinset]
  repeat' constructor
  all_goals exact List.mem_map_of_mem (by decide)

/-- A buffer the lines before the region do not write enters the region as launched. -/
private theorem launch_V0_of (c : Dev nD) (r : Ref sig .tc) (h0 : r ∉ launch_W0) (h1 : r ∉ launch_W0_1) :
    V0 m c (Proc.devRef .tc r) = m (c, Proc.devRef .tc r) := by
  unfold V0
  rw [List.flatten_cons, List.flatten_cons, List.flatten_nil, List.append_nil, StableHlo.after_append,
    StableHlo.after_of_writes_sub hostOps0_1 _ launch_hostOps0_1_writes h1, StableHlo.after_of_writes_sub hostOps0 _ launch_hostOps0_writes h0]

/-- The exit contents: the output column at what the write-backs left, -/
private theorem launch_Vexit_out (c : Dev nD) : Vexit m c (Proc.devRef .tc main_v6) = (dats m 0 c).arrAt 2 cfg0.N := by
  unfold Vexit; exact StableHlo.nullary_result _ _ _ _
/-- every other buffer as the region found it. -/
private theorem launch_Vexit_of (c : Dev nD) (r : Ref sig .tc) (h : r ≠ main_v6) : Vexit m c (Proc.devRef .tc r) = V0 m c (Proc.devRef .tc r) := by
  unfold Vexit; exact StableHlo.nullary_result_ne _ _ _ _ h
/-- A buffer the closing lines do not write ends at its exit contents. -/
private theorem launch_after1_of (c : Dev nD) (r : Ref sig .tc) (h : r ∉ launch_W1) :
    StableHlo.after hostOps1 (Vexit m c) (Proc.devRef .tc r) = Vexit m c (Proc.devRef .tc r) :=
  StableHlo.after_of_writes_sub hostOps1 _ launch_hostOps1_writes h

/-! ## The closing lines -/

/-- Both buffers behind the windows, at any contents that have the array of normalised rows as the region found it and
    the output column at what the write-backs left, are the proof data's arrays at the last point: an input array is
    never written. -/
private theorem launch_arrays_last (c : Dev nD) (W : Valuation τ sig (Elt F))
    (h5 : W (Proc.devRef .tc main_v5) = V0 m c (Proc.devRef .tc main_v5))
    (h6 : W (Proc.devRef .tc main_v6) = (dats m 0 c).arrAt 2 cfg0.N) :
    (Pipeline.arrBufs spec0 c (fun b => W (Proc.devRef .tc b)) : sProp 𝕄) ⊣⊢ (dats m 0 c).arrays ((dats m 0 c).arrAt · cfg0.N) :=
  launch_arrays_iff m c _ _ (((dats m 0 c).arrAt_in 0 rfl cfg0.N).trans h5.symm) (((dats m 0 c).arrAt_in 1 rfl cfg0.N).trans h5.symm) h6.symm

/-- The unscoped buffers held at a valuation are the two buffers behind the windows and the rest. -/
private theorem launch_held_split_arr (c : Dev nD) (W : Valuation τ sig (Elt F)) :
    (StableHlo.held (c.tc : Thread nD τ) (Pipeline.ucRefs τ sig) W : sProp 𝕄)
      = iprop(Pipeline.arrBufs spec0 c (fun b => W (Proc.devRef .tc b)) ∗ Pipeline.unscopedRest spec0 c (fun b => W (Proc.devRef .tc b))) := by
  rw [← Pipeline.unscopedBufs_held, Pipeline.unscopedBufs_split₀ cfgs 0 winFacts₀0.arr_unscoped]

/-- From the region's exit — the boundary, the arrays at their last contents, every other unscoped buffer as the region
    found it — the seventeen closing lines run within the unscoped buffers, write neither array, and hand back the arrays
    and the other buffers at the lines' values from the exit contents. -/
private theorem launch_tail_lines (c : Dev nD) (Q' : PUnit → sProp 𝕄) :
    iprop((iprop((dats m 0 c).arrays ((dats m 0 c).arrAt · cfg0.N)
              ∗ Pipeline.unscopedRest spec0 c (fun b => StableHlo.after hostOps1 (Vexit m c) (Proc.devRef .tc b))) -∗ Q' ⟨⟩)
        ∗ boundary (c.tc : Thread nD τ) ∗ (dats m 0 c).arrays ((dats m 0 c).arrAt · cfg0.N)
        ∗ Pipeline.unscopedRest spec0 c (fun b => V m c b))
      ⊢ wp frame (wpE (Pipeline.defs (fun q => (cfgs q).toPCfg) (defs₀ (F := F))) (Variants.lift Variants.none) (c.tc : Thread nD τ) none) Set.univ
          (Pipeline.chain ([hostOps1].map StableHlo.seq)) Q' := by
  classical
  -- the exit contents differ from the entry contents at the output column only, which is no buffer of the rest
  have hR : (Pipeline.unscopedRest spec0 c (fun b => V m c b) : sProp 𝕄)
      = Pipeline.unscopedRest spec0 c (fun b => Vexit m c (Proc.devRef .tc b)) := by
    unfold Pipeline.unscopedRest
    exact bigSep_congr fun b hb => by
      beta_reduce
      rw [launch_Vexit_of m c b fun e => (Finset.mem_sdiff.mp hb).2 (e ▸ Finset.mem_image.mpr ⟨2, Finset.mem_univ _, rfl⟩)]
  have hS : ∀ ops ∈ [hostOps1 (F := F)], ∀ op ∈ ops, op.bufs ⊆ Pipeline.ucRefs τ sig := fun ops ho op h => by
    obtain rfl := List.mem_singleton.mp ho
    exact Pipeline.sub_ucRefs op ((List.forall_iff_forall_mem.mp hostOps1_sub) op h)
  have hf : ∀ ops ∈ [hostOps1 (F := F)], ∀ op ∈ ops, op.fresh = ∅ := fun ops ho op h => by
    obtain rfl := List.mem_singleton.mp ho
    exact (List.forall_iff_forall_mem.mp launch_hostOps1_fresh) op h
  rw [hR, ← List.append_nil ([hostOps1].map StableHlo.seq)]
  iintro ⟨Hk, Hb, HA, HZ⟩
  ihave HA := (launch_arrays_last m c (Vexit m c) (launch_Vexit_of m c main_v5 (by decide)) (launch_Vexit_out m c)).2 $$ HA
  iapply (Pipeline.wp_seqs_then (fun q => (cfgs q).toPCfg) defs₀ Variants.none c (Pipeline.ucRefs τ sig) [] [hostOps1] hS hf (Vexit m c)) $$ [Hb HA HZ]
  · rw [launch_held_split_arr]
    isplitl [Hb]; · iexact Hb
    isplitl [HA]; · iexact HA
    iexact HZ
  iintro H
  rw [Pipeline.chain_nil, wp_pure, List.flatten_cons, List.flatten_nil, List.append_nil, launch_held_split_arr]
  imodintro
  icases H with ⟨-, HA, HZ⟩
  ihave HA := (launch_arrays_last m c (StableHlo.after hostOps1 (Vexit m c))
    ((launch_after1_of m c main_v5 (by decide)).trans (launch_Vexit_of m c main_v5 (by decide)))
    ((launch_after1_of m c main_v6 (by decide)).trans (launch_Vexit_out m c))).1 $$ HA
  iapply Hk
  isplitl [HA]; · iexact HA
  iexact HZ

/-! ## The invariant at the two ends: the scratch column -/

/-- The one scoped buffer that is no staging buffer is the scratch column: held at anything, it is the invariant
    before the first point. -/
private theorem launch_inv_in (c : Dev nD) (X P : sProp 𝕄) :
    iprop(X ∗ P ∗ Pipeline.scopedRest spec0 c) ⊢ (dats m 0 c).Φ 0 := by
  rw [scopedRest0_eq, show (dats m 0 c).Φ 0 = iprop(∃ d, owns (c : Thread nD τ) scM fullShare d) from PhiS_zero m c 0 (Nat.zero_le _) rfl]
  iintro ⟨-, -, ⟨%f, H⟩⟩
  iexists f
  rw [owns_whole]
  iexact H

/-- After the last point the invariant holds the scratch column at the last carried maximum: a scoped buffer at some
    contents again. -/
private theorem launch_inv_out (c : Dev nD) :
    (dats m 0 c).Φ (Fin.last cfg0.N) ⊢ iprop((emp : sProp 𝕄) ∗ Pipeline.scopedRest spec0 c) := by
  rw [scopedRest0_eq, show (dats m 0 c).Φ (Fin.last cfg0.N) = _ from PhiS_pos m c cfg0.N le_rfl (by rw [show cfg0.N = 64 from N_0]; decide), owns_whole]
  iintro H
  isplitr
  · iempintro
  · iexists _; iexact H

/-! ## The run -/

/-- The unscoped buffers that are no window's array. -/
private abbrev launch_restSet : Finset (Ref sig .tc) :=
  (Finset.univ.filter fun b : Ref sig .tc => ¬ b.isScoped) \ Finset.univ.image (Pipeline.arrRef spec0)

/-- Every weakly fair execution of @main terminates without a fault; the result buffer ends at the closing host
    lines' value from the region's exit contents, and the argument array is unchanged. -/
theorem run_main : θ_run defs (onTc (τ := τ) (main (F := F))) ⟨m, fun _ => 0, ρ⟩ (fun r => ∀ c : Dev nD,
      r.2.mem ((c.tc : Thread nD τ).loc main_v18) = StableHlo.after hostOps1 (Vexit m c) (Proc.devRef .tc main_v18)
      ∧ r.2.mem ((c.tc : Thread nD τ).loc main_arg0) = m ((c.tc : Thread nD τ).loc main_arg0)) := by
  classical
  refine Pipeline.θ_run_region_noSem_pf_tail (fun q => (cfgs q).toPCfg) (fun q => (cfgs q).toPCfg_adm)
    (dats m) () cellOf_inj 0 winFacts₀0 (Pipeline.PreFacts.none _) emb₁ defs₀ Variants.none m ρ main
    (fun _ => Pipeline.chain ([hostOps1].map StableHlo.seq))
    (fun c => (body_obligation m c).loose)
    block_pos0 arr_whole0 stage_whole0 (fun _ _ => rfl)
    (u₀ := initOf (Pipeline.cells (Pipeline.pin (fun q => (cfgs q).toPCfg) (fun q => (cfgs q).toPCfg_adm)) cellOf_inj) (Pipeline.launchToks (Pipeline.pin (fun q => (cfgs q).toPCfg) (fun q => (cfgs q).toPCfg_adm)) cellOf_inj))
    (hu₀ := .rfl)
    (V := fun c b => V m c b)
    (hmain := Pipeline.hmain_around cfgs 0 defs₀ Variants.none m main [hostOps0, hostOps0_1] [hostOps1]
      ⟨hostOps0_sub, hostOps0_1_sub⟩ ⟨launch_hostOps0_fresh, launch_hostOps0_1_fresh⟩ main_chain)
    (hsplit := fun c => (launch_arrays_iff m c _ _ rfl rfl rfl).1)
    (hpf := fun _ k => k.elim0)
    (X := fun _ => iprop(emp)) (Y := fun _ => iprop(emp))
    (Z := fun c => Pipeline.unscopedRest spec0 c (fun b => V m c b))
    (Z' := fun c => Pipeline.unscopedRest spec0 c (fun b => StableHlo.after hostOps1 (Vexit m c) (Proc.devRef .tc b)))
    (hX := fun c => by
      rw [Pipeline.unscopedRestP_none]
      iintro H
      isplitr
      · iempintro
      · iexact H)
    (hin := fun c => launch_inv_in m c _ _)
    (hout := fun c => launch_inv_out m c)
    (htail := fun c Q' => launch_tail_lines m c Q')
    (QY := fun c s => ∀ b ∈ launch_restSet, s.mem ((c.tc : Thread nD τ).loc b) = StableHlo.after hostOps1 (Vexit m c) (Proc.devRef .tc b))
    (hY := fun c s' => by
      iintro ⟨-, HU, HSI⟩
      unfold Pipeline.unscopedRest
      imodintro
      iapply (pointsTo_read_all launch_restSet (fun b => (c.tc : Thread nD τ).loc b)
        (fun b => StableHlo.after hostOps1 (Vexit m c) (Proc.devRef .tc b)) s')
      isplitl [HU] <;> iassumption)
    (hQ := fun s h c => ⟨(h c).2.2 main_v18 (by decide), ((h c).2.2 main_arg0 (by decide)).trans
      ((launch_after1_of m c main_arg0 (by decide)).trans ((launch_Vexit_of m c main_arg0 (by decide)).trans (launch_V0_of m c main_arg0 (by decide) (by decide))))⟩)

end Cert.KernelIdeal.Hand

end
-- ==== Proof.KernelIdealPayload.lean ====
/-
  The body's arithmetic read at an index, at the ideal values: the reset column is -∞ everywhere, and the update is,
  at row r, the larger of what the scratch held and the largest masked inner product of row r of the row tile with
  the rows of the column tile — masked where the global row index equals the global column index.
-/
import proofs.«138519_j13924283973723_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.TcCoe Idealize.SL.Sem Idealize.ShloMosaic.ValueIdx
open Cert.KernelIdeal Cert.KernelIdeal.Gen

/-- The f32 word of -∞ denotes the bottom extended real. -/
theorem ofBits_negInf_f32 : Ideal.ofBits .f32 0xFF800000#32 = (⊥ : EReal) := by
  simp [Ideal.ofBits, Ideal.ieee]

/-- A vector of 2048 entries viewed as a column reads entry `r` at row `r`. -/
theorem column_apply {α : Type} (v : S2048.Idx → α) (r : Fin 2048) :
    shapeCast S2048x1 v shapeCasts_S2048_S2048x1 (ix2 r (0 : Fin 1)) = v (ix1 r) := by
  refine shapeCast_apply v _ (ix2 r (0 : Fin 1)) (ix1 r) ?_
  rw [Shape.rowMajor_val_one, Shape.rowMajor_val_two]
  show r.val = r.val * 1 + 0
  omega

/-- The index a row's reduction inserts column `q` at is `(r, q)`. -/
theorem lift_row (r : Fin 2048) (q : Fin 2048) :
    reduces_S2048x2048_S2048.lift (ix1 r) q = ix2 r q :=
  funext fun a => Fin.ext (by
    match a with
    | ⟨0, _⟩ => rfl
    | ⟨1, _⟩ => rfl)

/-- The lane maximum over the columns, at row `r`: the fold of `max` from -∞ along the row. -/
theorem rowmax_apply (src : FVec Ideal S2048x2048 .f32) (hφ : FKind.Formats .f32)
    (hacc : (0xFF800000#32 : BitVec 32) = FKind.maximumf.neutral .f32 hφ) (r : Fin 2048) :
    multiReduction (F := Ideal) .maximumf [1] S2048 src 0xFF800000#32 reduces_S2048x2048_S2048 hφ hacc (ix1 r)
      = (Finset.univ : Finset (Fin 2048)).fold max (⊥ : EReal) fun q => src (ix2 r q) := by
  refine (Ideal.multiReduction_maximumf_single src 0xFF800000#32 reduces_S2048x2048_S2048 hφ hacc (ix1 r)).trans ?_
  show (Finset.univ : Finset (Fin 2048)).fold max (Ideal.ofBits .f32 0xFF800000#32)
      (fun q => src (reduces_S2048x2048_S2048.lift (ix1 r) q)) = _
  rw [ofBits_negInf_f32]
  exact congrArg (fun f : Fin 2048 → EReal => (Finset.univ : Finset (Fin 2048)).fold max (⊥ : EReal) f)
    (funext fun q => congrArg src (lift_row r q))

/-! ## The product of the row tile with the column tile's rows -/

/-- The left operand's row coordinate is the output's row coordinate. -/
theorem lhs_dot_0 (j : S2048x2048.Idx) (k : dot_S2048x1024_S2048x1024_S2048x2048_1_1_0_0_n_n.contr.Idx) :
    (dot_S2048x1024_S2048x1024_S2048x2048_1_1_0_0_n_n.lhsIdx j k 0).val = (j 0).val := by
  unfold DotDims.lhsIdx
  rw [dif_neg (show ¬(0 : Fin S2048x1024.rank) ∈ dot_S2048x1024_S2048x1024_S2048x2048_1_1_0_0_n_n.lhsBatch by decide), dif_pos (show (0 : Fin S2048x1024.rank) ∈ dot_S2048x1024_S2048x1024_S2048x2048_1_1_0_0_n_n.lhsNonContracting by decide)]
  rfl
/-- The left operand's column coordinate is the contraction coordinate. -/
theorem lhs_dot_1 (j : S2048x2048.Idx) (k : dot_S2048x1024_S2048x1024_S2048x2048_1_1_0_0_n_n.contr.Idx) :
    (dot_S2048x1024_S2048x1024_S2048x2048_1_1_0_0_n_n.lhsIdx j k 1).val = (k ⟨0, by decide⟩).val :=
  dot_S2048x1024_S2048x1024_S2048x2048_1_1_0_0_n_n.lhsIdx_val_of_single rfl j k
/-- The right operand's row coordinate is the output's column coordinate. -/
theorem rhs_dot_0 (j : S2048x2048.Idx) (k : dot_S2048x1024_S2048x1024_S2048x2048_1_1_0_0_n_n.contr.Idx) :
    (dot_S2048x1024_S2048x1024_S2048x2048_1_1_0_0_n_n.rhsIdx j k 0).val = (j 1).val := by
  unfold DotDims.rhsIdx
  rw [dif_neg (show ¬(0 : Fin S2048x1024.rank) ∈ dot_S2048x1024_S2048x1024_S2048x2048_1_1_0_0_n_n.rhsBatch by decide), dif_pos (show (0 : Fin S2048x1024.rank) ∈ dot_S2048x1024_S2048x1024_S2048x2048_1_1_0_0_n_n.rhsNonContracting by decide)]
  rfl
/-- The right operand's column coordinate is the contraction coordinate. -/
theorem rhs_dot_1 (j : S2048x2048.Idx) (k : dot_S2048x1024_S2048x1024_S2048x2048_1_1_0_0_n_n.contr.Idx) :
    (dot_S2048x1024_S2048x1024_S2048x2048_1_1_0_0_n_n.rhsIdx j k 1).val = (k ⟨0, by decide⟩).val :=
  dot_S2048x1024_S2048x1024_S2048x2048_1_1_0_0_n_n.rhsIdx_val_of_single rfl j k

/-- Entry `(r, q)` of the product into the zero splat: the inner product of row `r` of the left tile with row `q` of the right. -/
theorem matmul_rows_apply (a b : FVec Ideal S2048x1024 .bf16) (r q : Fin 2048) :
    matmul dot_S2048x1024_S2048x1024_S2048x2048_1_1_0_0_n_n none a b (constant (F := Ideal) S2048x2048 .f32 0x00000000#32) (ix2 r q)
      = ∑ k : Fin 1024, a (ix2 r k) * b (ix2 q k) := by
  simp only [matmul]
  rw [Ideal.matmul_constant_zero_apply, ← Equiv.sum_comp (ValueIdx.contrEquiv1 dot_S2048x1024_S2048x1024_S2048x2048_1_1_0_0_n_n 1024 rfl rfl).symm]
  refine Finset.sum_congr rfl fun k _ => ?_
  have hk := ValueIdx.contrEquiv1_symm_val dot_S2048x1024_S2048x1024_S2048x2048_1_1_0_0_n_n 1024 rfl rfl k
  have el : dot_S2048x1024_S2048x1024_S2048x2048_1_1_0_0_n_n.lhsIdx (ix2 r q) ((ValueIdx.contrEquiv1 dot_S2048x1024_S2048x1024_S2048x2048_1_1_0_0_n_n 1024 rfl rfl).symm k) = ix2 r k := funext fun a => Fin.ext (by
    match a with
    | ⟨0, _⟩ => exact lhs_dot_0 _ _
    | ⟨1, _⟩ => exact (lhs_dot_1 _ _).trans hk)
  have er : dot_S2048x1024_S2048x1024_S2048x2048_1_1_0_0_n_n.rhsIdx (ix2 r q) ((ValueIdx.contrEquiv1 dot_S2048x1024_S2048x1024_S2048x2048_1_1_0_0_n_n 1024 rfl rfl).symm k) = ix2 q k := funext fun a => Fin.ext (by
    match a with
    | ⟨0, _⟩ => exact rhs_dot_0 _ _
    | ⟨1, _⟩ => exact (rhs_dot_1 _ _).trans hk)
  rw [el, er]

/-! ## The mask -/

/-- The mask's word equation is the equation of the global indices: nothing wraps at these sizes. -/
theorem mask_word_iff (a b r q : Nat) (ha : a < 8) (hb : b < 8) (hr : r < 2048) (hq : q < 2048) :
    BitVec.ofNat 32 a * 2048#32 + BitVec.ofNat 32 r = BitVec.ofNat 32 b * 2048#32 + BitVec.ofNat 32 q
      ↔ 2048 * a + r = 2048 * b + q := by
  rw [← BitVec.toNat_inj]
  simp only [BitVec.toNat_add, BitVec.toNat_mul, BitVec.toNat_ofNat]
  omega

/-- An equality compare of two words is the word 1 when they are equal and the word 0 when not. -/
theorem cmpi_eq_word {w : Nat} (a b : BitVec w) : IntOp.cmpi .eq a b = if a = b then 1#1 else 0#1 := by
  unfold IntOp.cmpi
  by_cases h : a = b
  · simp [h]
  · have hb : (a == b) = false := beq_eq_false_iff_ne.2 h
    simp [h, hb]

/-- The mask at `(r, q)`: set exactly where the global row index is the global column index. -/
theorem mask_apply (i : grid0.Coords) (r q : Fin 2048) :
    cmpi .eq
        (addi (broadcast S2048x2048 (Scalar.muli (BitVec.ofNat 32 (i 0).val) 2048#32)) (iota .tc S2048x2048 32 [0] iota_S2048x2048_d0_w32))
        (addi (broadcast S2048x2048 (Scalar.muli (BitVec.ofNat 32 (i 1).val) 2048#32)) (iota .tc S2048x2048 32 [1] iota_S2048x2048_d1_w32))
        (ix2 r q)
      = if 2048 * (i 0).val + r.val = 2048 * (i 1).val + q.val then 1#1 else 0#1 := by
  have h0 : (i 0).val < 8 := (i 0).isLt
  have h1 : (i 1).val < 8 := (i 1).isLt
  show IntOp.cmpi .eq
      (BitVec.ofNat 32 (i 0).val * 2048#32 + iota .tc S2048x2048 32 [0] iota_S2048x2048_d0_w32 (ix2 r q))
      (BitVec.ofNat 32 (i 1).val * 2048#32 + iota .tc S2048x2048 32 [1] iota_S2048x2048_d1_w32 (ix2 r q)) = _
  rw [iota_single_apply, iota_single_apply, cmpi_eq_word]
  show (if BitVec.ofNat 32 (i 0).val * 2048#32 + BitVec.ofNat 32 r.val = BitVec.ofNat 32 (i 1).val * 2048#32 + BitVec.ofNat 32 q.val
      then 1#1 else 0#1) = _
  by_cases h : 2048 * (i 0).val + r.val = 2048 * (i 1).val + q.val
  · rw [if_pos h, if_pos ((mask_word_iff _ _ _ _ h0 h1 r.isLt q.isLt).2 h)]
  · rw [if_neg h, if_neg (fun hw => h ((mask_word_iff _ _ _ _ h0 h1 r.isLt q.isLt).1 hw))]

/-- A select on such a mask word is the conditional. -/
theorem select_ite {α : Type} (P : Prop) [Decidable P] (x y : α) :
    Scalar.select (if P then 1#1 else 0#1) x y = if P then x else y := by
  by_cases h : P
  · rw [if_pos h, if_pos h]; exact select_one x y
  · rw [if_neg h, if_neg h]; exact select_zero x y

/-- The masked product at `(r, q)`. -/
theorem masked_apply (i : grid0.Coords) (a b : FVec Ideal S2048x1024 .bf16) (r q : Fin 2048) :
    select
        (cmpi .eq
          (addi (broadcast S2048x2048 (Scalar.muli (BitVec.ofNat 32 (i 0).val) 2048#32)) (iota .tc S2048x2048 32 [0] iota_S2048x2048_d0_w32))
          (addi (broadcast S2048x2048 (Scalar.muli (BitVec.ofNat 32 (i 1).val) 2048#32)) (iota .tc S2048x2048 32 [1] iota_S2048x2048_d1_w32)))
        (broadcast S2048x2048 (FloatOps.ofBits (F := Ideal) .f32 0xFF800000#32))
        (matmul dot_S2048x1024_S2048x1024_S2048x2048_1_1_0_0_n_n none a b (constant (F := Ideal) S2048x2048 .f32 0x00000000#32))
        (ix2 r q)
      = if 2048 * (i 0).val + r.val = 2048 * (i 1).val + q.val then (⊥ : EReal)
        else ∑ k : Fin 1024, a (ix2 r k) * b (ix2 q k) := by
  rw [select_apply, mask_apply, select_ite, broadcast_apply, matmul_rows_apply]
  exact congrArg (fun x : EReal => if 2048 * (i 0).val + r.val = 2048 * (i 1).val + q.val then x
    else ∑ k : Fin 1024, a (ix2 r k) * b (ix2 q k)) ofBits_negInf_f32

/-! ## The two payloads -/

/-- The reset column holds -∞ at every row. -/
theorem pay1_apply (y : S2048x1.Idx) : k0_pay1 (F := Ideal) y = (⊥ : EReal) := by
  unfold k0_pay1
  simp only [shapeCast_self, broadcast_apply]
  exact ofBits_negInf_f32

/-- The update at row `r`. -/
theorem pay2_apply (i : grid0.Coords) (v3 v5 : Vec Ideal S2048x1024 .bf16) (v21 : Vec Ideal S2048x1 .f32) (r : Fin 2048) :
    k0_pay2 (F := Ideal) i v3 v5 v21 (ix2 r (0 : Fin 1))
      = max (v21 (ix2 r (0 : Fin 1))) ((Finset.univ : Finset (Fin 2048)).fold max (⊥ : EReal) fun q' =>
          if 2048 * (i 0).val + r.val = 2048 * (i 1).val + q'.val then (⊥ : EReal)
          else ∑ k : Fin 1024, v3 (ix2 r k) * v5 (ix2 q' k)) := by
  unfold k0_pay2
  simp only [shapeCast_self]
  rw [maximumf_apply, column_apply]
  refine congrArg (max (v21 (ix2 r (0 : Fin 1)))) ?_
  refine (rowmax_apply _ _ _ r).trans ?_
  exact congrArg (fun f : Fin 2048 → EReal => (Finset.univ : Finset (Fin 2048)).fold max (⊥ : EReal) f)
    (funext fun q => masked_apply i v3 v5 r q)

end Cert.KernelIdeal.Payload

end
-- ==== Proof.Spec.lean ====
/-
  The mathematics both programs compute, over the extended reals.

  For a matrix X of 16384 rows and 1024 features, the masked Gram entry of rows p and q is -∞ on the diagonal and
  the inner product ∑ₖ X p k · X q k off it; the row maximum is the maximum over all q, starting from -∞.
  A maximum over 16384 columns is the maximum over eight tiles of 2048 columns of the tiles' maxima: max is
  associative and commutative on the extended reals and -∞ is its identity, so no finiteness is needed.
-/
import Mathlib.Data.EReal.Basic
import Mathlib.Algebra.BigOperators.Group.Finset.Basic
import Mathlib.Data.Finset.Fold
import Mathlib.Data.Fintype.BigOperators

noncomputable section

namespace Cert.Spec

/-- The masked Gram entry: -∞ on the diagonal, the inner product of rows `p` and `q` off it. -/
def simOff (X : Fin 16384 → Fin 1024 → EReal) (p q : Fin 16384) : EReal :=
  if p = q then ⊥ else ∑ k : Fin 1024, X p k * X q k

/-- The largest masked Gram entry of row `p`. -/
def rowMaxOff (X : Fin 16384 → Fin 1024 → EReal) (p : Fin 16384) : EReal :=
  (Finset.univ : Finset (Fin 16384)).fold max ⊥ (simOff X p)

/-- The largest masked Gram entry of row `p` within column tile `j` (columns 2048·j … 2048·j + 2047). -/
def tileMax (X : Fin 16384 → Fin 1024 → EReal) (p : Fin 16384) (j : Fin 8) : EReal :=
  (Finset.univ : Finset (Fin 2048)).fold max ⊥ fun q' => simOff X p ⟨2048 * j.val + q'.val, by omega⟩

/-- The running maximum over the first `n` column tiles. -/
def prefMax (X : Fin 16384 → Fin 1024 → EReal) (p : Fin 16384) : ℕ → EReal
  | 0 => ⊥
  | n + 1 => max (prefMax X p n) (if h : n < 8 then tileMax X p ⟨n, h⟩ else ⊥)

theorem prefMax_zero (X : Fin 16384 → Fin 1024 → EReal) (p : Fin 16384) : prefMax X p 0 = ⊥ := rfl

theorem prefMax_succ (X : Fin 16384 → Fin 1024 → EReal) (p : Fin 16384) (j : Fin 8) :
    prefMax X p (j.val + 1) = max (prefMax X p j.val) (tileMax X p j) := by
  show max _ (if h : j.val < 8 then tileMax X p ⟨j.val, h⟩ else ⊥) = _
  rw [dif_pos j.isLt]

/-- A bound dominates a tile's maximum exactly when it dominates every masked entry of the tile. -/
theorem tileMax_le_iff (X : Fin 16384 → Fin 1024 → EReal) (p : Fin 16384) (j : Fin 8) (c : EReal) :
    tileMax X p j ≤ c ↔ ∀ q' : Fin 2048, simOff X p ⟨2048 * j.val + q'.val, by omega⟩ ≤ c := by
  unfold tileMax
  rw [Finset.fold_max_le]
  exact ⟨fun h q' => h.2 q' (Finset.mem_univ _), fun h => ⟨bot_le, fun q' _ => h q'⟩⟩

/-- A bound dominates the running maximum over the first `n` tiles exactly when it dominates each of them. -/
theorem prefMax_le_iff (X : Fin 16384 → Fin 1024 → EReal) (p : Fin 16384) (c : EReal) :
    ∀ n : ℕ, n ≤ 8 → (prefMax X p n ≤ c ↔ ∀ j : Fin 8, j.val < n → tileMax X p j ≤ c)
  | 0, _ => ⟨fun _ j hj => absurd hj (Nat.not_lt_zero _), fun _ => bot_le⟩
  | n + 1, hn => by
    have hn8 : n < 8 := hn
    show max (prefMax X p n) (if h : n < 8 then tileMax X p ⟨n, h⟩ else ⊥) ≤ c ↔ _
    rw [dif_pos hn8, max_le_iff, prefMax_le_iff X p c n (Nat.le_of_lt hn8)]
    constructor
    · rintro ⟨h₁, h₂⟩ j hj
      rcases Nat.lt_succ_iff_lt_or_eq.mp hj with h | h
      · exact h₁ j h
      · obtain rfl : j = ⟨n, hn8⟩ := Fin.ext h
        exact h₂
    · intro h
      exact ⟨fun j hj => h j (Nat.lt_succ_of_lt hj), h ⟨n, hn8⟩ (Nat.lt_succ_self n)⟩

/-- After all eight column tiles the running maximum is the row maximum: each side is dominated by exactly the
    bounds that dominate every masked entry of the row, column `q` lying in tile `q / 2048` at offset `q % 2048`. -/
theorem prefMax_eight (X : Fin 16384 → Fin 1024 → EReal) (p : Fin 16384) : prefMax X p 8 = rowMaxOff X p := by
  refine eq_of_forall_ge_iff fun c => ?_
  rw [prefMax_le_iff X p c 8 le_rfl]
  unfold rowMaxOff
  rw [Finset.fold_max_le]
  constructor
  · intro h
    refine ⟨bot_le, fun q _ => ?_⟩
    have hq := q.isLt
    have h1 := (tileMax_le_iff X p ⟨q.val / 2048, by omega⟩ c).mp (h ⟨q.val / 2048, by omega⟩ (by simp only []; omega))
      ⟨q.val % 2048, Nat.mod_lt _ (by norm_num)⟩
    have e : (⟨2048 * (q.val / 2048) + q.val % 2048, by omega⟩ : Fin 16384) = q := Fin.ext (Nat.div_add_mod _ _)
    simpa only [e] using h1
  · rintro ⟨-, h⟩ j _
    exact (tileMax_le_iff X p j c).mpr fun q' => h _ (Finset.mem_univ _)

end Cert.Spec

end
-- ==== Proof.KernelIdealColumn.lean ====
/-
  The output column after the region, at the ideal values: at row p it is the largest masked Gram entry of row p of
  the normalised rows. Row tile i is finished at point 8·i + 7, where the scratch column — the running maximum over
  the eight column tiles — is copied to the output block, which the pipeline writes back to rows 2048·i … 2048·i + 2047.
-/
import proofs.«138519_j13924283973723_1_alg».proof.Proof.KernelIdealData
import proofs.«138519_j13924283973723_1_alg».proof.Proof.KernelIdealPayload
import proofs.«138519_j13924283973723_1_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (m : (ℓ : Loc nD τ sig) → Buf (Elt Ideal) ℓ)

/-- The normalised rows as the region finds them, by row and feature. -/
def rowsK (c : Dev nD) : Fin 16384 → Fin 1024 → EReal := fun a k =>
  (V m c main_v5 : S16384x1024.Idx → EReal) (ix2 a k)

/-! ## The grid's points and the windows' block indices -/

/-- The grid has 64 points. -/
private theorem points64 : cfg0.N = 64 := by decide

/-- Point t = 8·i + j has coordinates (i, j); window 0 and the output window sit at block row i, window 1 at block
    row j, each at block column 0. Decided once over the 64 points. -/
private theorem pointFacts : ∀ t : Fin cfg0.N,
    (grid0.coords t 0).val = t.val / 8 ∧ (grid0.coords t 1).val = t.val % 8
    ∧ win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-! ## The two tiles as rows of the normalised array -/

/-- The row tile at point t holds rows 2048·(t / 8) … of the normalised array. -/
private theorem rowTile_apply (c : Dev nD) (t : Fin cfg0.N) (r : Fin 2048) (k : Fin 1024)
    (h : 2048 * (t.val / 8) + r.val < 16384) :
    (rowTile m c t : S2048x1024.Idx → EReal) (ix2 r k) = rowsK m c ⟨2048 * (t.val / 8) + r.val, h⟩ k := by
  obtain ⟨-, -, e0, e1, -⟩ := pointFacts t
  show (V m c main_v5 : S16384x1024.Idx → EReal) (((cfg0.win 0).blk t).view.emb (ix2 r k))
    = (V m c main_v5 : S16384x1024.Idx → EReal) (ix2 ⟨2048 * (t.val / 8) + r.val, h⟩ k)
  refine congrArg _ (funext fun a => Fin.ext ?_)
  match a with
  | ⟨0, _⟩ => show win0_0.index t (0 : Fin 2) * 2048 + 1 * r.val = 2048 * (t.val / 8) + r.val; rw [e0]; omega
  | ⟨1, _⟩ => show win0_0.index t (1 : Fin 2) * 1024 + 1 * k.val = k.val; rw [e1]; omega

/-- The column tile at point t holds rows 2048·(t % 8) … of the same array. -/
private theorem colTile_apply (c : Dev nD) (t : Fin cfg0.N) (q : Fin 2048) (k : Fin 1024)
    (h : 2048 * (t.val % 8) + q.val < 16384) :
    (colTile m c t : S2048x1024.Idx → EReal) (ix2 q k) = rowsK m c ⟨2048 * (t.val % 8) + q.val, h⟩ k := by
  obtain ⟨-, -, -, -, e0, e1, -⟩ := pointFacts t
  show (V m c main_v5 : S16384x1024.Idx → EReal) (((cfg0.win 1).blk t).view.emb (ix2 q k))
    = (V m c main_v5 : S16384x1024.Idx → EReal) (ix2 ⟨2048 * (t.val % 8) + q.val, h⟩ k)
  refine congrArg _ (funext fun a => Fin.ext ?_)
  match a with
  | ⟨0, _⟩ => show win0_1.index t (0 : Fin 2) * 2048 + 1 * q.val = 2048 * (t.val % 8) + q.val; rw [e0]; omega
  | ⟨1, _⟩ => show win0_1.index t (1 : Fin 2) * 1024 + 1 * k.val = k.val; rw [e1]; omega

/-! ## One point's update -/

/-- The masked Gram tile's row maximum at point t is the tile maximum of the global row against column tile t % 8:
    the mask's test on the global row and column numbers is equality of the two rows. -/
private theorem tile_eq (c : Dev nD) (t : Fin cfg0.N) (r : Fin 2048)
    (hp : 2048 * (t.val / 8) + r.val < 16384) (hj : t.val % 8 < 8) :
    ((Finset.univ : Finset (Fin 2048)).fold max (⊥ : EReal) fun q' =>
        if 2048 * (grid0.coords t 0).val + r.val = 2048 * (grid0.coords t 1).val + q'.val then (⊥ : EReal)
        else ∑ k : Fin 1024, (rowTile m c t : S2048x1024.Idx → EReal) (ix2 r k) * (colTile m c t : S2048x1024.Idx → EReal) (ix2 q' k))
      = Cert.Spec.tileMax (rowsK m c) ⟨2048 * (t.val / 8) + r.val, hp⟩ ⟨t.val % 8, hj⟩ := by
  obtain ⟨g0, g1, -⟩ := pointFacts t
  unfold Cert.Spec.tileMax
  refine Finset.fold_congr fun q' _ => ?_
  unfold Cert.Spec.simOff
  rw [g0, g1]
  have hq : 2048 * (t.val % 8) + q'.val < 16384 := by have := q'.isLt; omega
  refine if_congr ⟨fun e => Fin.ext e, fun e => congrArg Fin.val e⟩ rfl (Finset.sum_congr rfl fun k _ => ?_)
  rw [rowTile_apply m c t r k hp, colTile_apply m c t q' k hq]

/-- The body's update at point t, at row r: the maximum of what the scratch held and the tile maximum. -/
private theorem update_apply (c : Dev nD) (t : Fin cfg0.N) (r : Fin 2048) (v21 : Vec Ideal S2048x1 .f32)
    (hp : 2048 * (t.val / 8) + r.val < 16384) (hj : t.val % 8 < 8) :
    (k0_pay2 (F := Ideal) (grid0.coords t) (rowTile m c t) (colTile m c t) v21 : S2048x1.Idx → EReal) (ix2 r (0 : Fin 1))
      = max ((v21 : S2048x1.Idx → EReal) (ix2 r (0 : Fin 1)))
          (Cert.Spec.tileMax (rowsK m c) ⟨2048 * (t.val / 8) + r.val, hp⟩ ⟨t.val % 8, hj⟩) := by
  refine (Cert.KernelIdeal.Payload.pay2_apply (grid0.coords t) (rowTile m c t) (colTile m c t) v21 r).trans ?_
  exact congrArg (max _) (tile_eq m c t r hp hj)

/-! ## The carried column is the running maximum over the column tiles seen so far -/

/-- After point t = 8·i + j the scratch column holds, at row r, the running maximum of global row 2048·i + r over the
    column tiles 0 … j. -/
private theorem acc_prefMax (c : Dev nD) (r : Fin 2048) :
    ∀ (n : ℕ) (t : Fin cfg0.N), t.val = n → ∀ p : Fin 16384, p.val = 2048 * (t.val / 8) + r.val →
      (accAt m c t.val t.isLt : S2048x1.Idx → EReal) (ix2 r (0 : Fin 1))
        = Cert.Spec.prefMax (rowsK m c) p (t.val % 8 + 1) := by
  intro n
  induction n with
  | zero =>
    intro t hn p hp
    have h0 : t.val % 8 = 0 := by omega
    have hj : t.val % 8 < 8 := by omega
    have hp' : 2048 * (t.val / 8) + r.val < 16384 := by have := p.isLt; omega
    obtain rfl : p = ⟨2048 * (t.val / 8) + r.val, hp'⟩ := Fin.ext hp
    rw [accAt_reset m c t h0]
    refine (update_apply m c t r _ hp' hj).trans ?_
    refine Eq.trans ?_ (Cert.Spec.prefMax_succ (rowsK m c) _ ⟨t.val % 8, hj⟩).symm
    refine congrArg (fun x => max x _) ?_
    have e : Cert.Spec.prefMax (rowsK m c) ⟨2048 * (t.val / 8) + r.val, hp'⟩ (t.val % 8) = ⊥ := by
      rw [h0]; rfl
    exact (Cert.KernelIdeal.Payload.pay1_apply _).trans e.symm
  | succ n ih =>
    intro t hn p hp
    have hj : t.val % 8 < 8 := by omega
    have hp' : 2048 * (t.val / 8) + r.val < 16384 := by have := p.isLt; omega
    obtain rfl : p = ⟨2048 * (t.val / 8) + r.val, hp'⟩ := Fin.ext hp
    by_cases h0 : t.val % 8 = 0
    · rw [accAt_reset m c t h0]
      refine (update_apply m c t r _ hp' hj).trans ?_
      refine Eq.trans ?_ (Cert.Spec.prefMax_succ (rowsK m c) _ ⟨t.val % 8, hj⟩).symm
      refine congrArg (fun x => max x _) ?_
      have e : Cert.Spec.prefMax (rowsK m c) ⟨2048 * (t.val / 8) + r.val, hp'⟩ (t.val % 8) = ⊥ := by
        rw [h0]; rfl
      exact (Cert.KernelIdeal.Payload.pay1_apply _).trans e.symm
    · rw [accAt_step m c t h0]
      refine (update_apply m c t r _ hp' hj).trans ?_
      refine Eq.trans ?_ (Cert.Spec.prefMax_succ (rowsK m c) _ ⟨t.val % 8, hj⟩).symm
      refine congrArg (fun x => max x _) ?_
      have hlt : t.val - 1 < cfg0.N := Nat.lt_of_le_of_lt (Nat.sub_le _ _) t.isLt
      have hprev := ih ⟨t.val - 1, hlt⟩ (by show t.val - 1 = n; omega) ⟨2048 * (t.val / 8) + r.val, hp'⟩
        (by show 2048 * (t.val / 8) + r.val = 2048 * ((t.val - 1) / 8) + r.val; omega)
      have e : (t.val - 1) % 8 + 1 = t.val % 8 := by omega
      exact hprev.trans (congrArg (Cert.Spec.prefMax (rowsK m c) _) e)

/-! ## From the write-backs to the column -/

/-- Per-row values laid out as an array of 16384 rows and one column. -/
private def colOf (X : Fin 16384 → EReal) : S16384x1.Idx → EReal := fun y => X ⟨(y 0).val, (y 0).isLt⟩

private theorem colOf_apply (X : Fin 16384 → EReal) (p : Fin 16384) (z : Fin 1) : colOf X (ix2 p z) = X p := rfl

/-- A block's contents that agree, element by element, with such a column under the output window's block at point t
    are that block of the column. -/
private theorem cut_eq_read_colOf (X : Fin 16384 → EReal) (t : Fin cfg0.N) (f : Vec Ideal S2048x1 .f32)
    (h : ∀ y : S2048x1.Idx, (f : S2048x1.Idx → EReal) y = colOf X (((cfg0.win 2).blk t).view.emb y)) :
    (cfg0.win 2).cut (grid0.coords t) f = ((cfg0.win 2).blk t).view.read (Elt Ideal) (colOf X) :=
  funext h

/-- At a last column tile the scratch column, at row r, is the row maximum of global row 2048·(t / 8) + r. -/
private theorem acc_last (c : Dev nD) (t : Fin cfg0.N) (h7 : t.val % 8 = 7) (r : Fin 2048)
    (hp : 2048 * (t.val / 8) + r.val < 16384) :
    (accAt m c t.val t.isLt : S2048x1.Idx → EReal) (ix2 r (0 : Fin 1))
      = Cert.Spec.rowMaxOff (rowsK m c) ⟨2048 * (t.val / 8) + r.val, hp⟩ := by
  rw [acc_prefMax m c r t.val t rfl ⟨2048 * (t.val / 8) + r.val, hp⟩ rfl, h7]
  exact Cert.Spec.prefMax_eight _ _

/-- What a writing point writes back is its block of that column. -/
private theorem flushed_point (c : Dev nD) (t : Fin cfg0.N) (h7 : t.val % 8 = 7) (y : S2048x1.Idx) :
    (accAt m c t.val t.isLt : S2048x1.Idx → EReal) y
      = colOf (Cert.Spec.rowMaxOff (rowsK m c)) (((cfg0.win 2).blk t).view.emb y) := by
  obtain ⟨r, z, rfl⟩ : ∃ (r : Fin 2048) (z : Fin 1), y = ix2 r z := ⟨y 0, y 1, eq_ix2 y⟩
  obtain rfl : z = 0 := Subsingleton.elim _ _
  obtain ⟨-, -, -, -, -, -, e0, -⟩ := pointFacts t
  have hp : 2048 * (t.val / 8) + r.val < 16384 := by
    have h64 : t.val < 64 := lt_of_lt_of_eq t.isLt points64
    have := r.isLt; omega
  rw [acc_last m c t h7 r hp]
  unfold colOf
  refine congrArg (Cert.Spec.rowMaxOff (rowsK m c)) (Fin.ext ?_)
  show 2048 * (t.val / 8) + r.val = win0_2.index t (0 : Fin 2) * 2048 + 1 * r.val
  rw [e0]; omega

private theorem flushed_eq (c : Dev nD) (t : Fin cfg0.N) (hf : (cfg0.win 2).flush t = true) :
    (dats (F := Ideal) m 0 c).flushed 2 t
      = ((cfg0.win 2).blk t).view.read (Elt Ideal) (colOf (Cert.Spec.rowMaxOff (rowsK m c))) := by
  have h7 : t.val % 8 = 7 := (flush0_2 t).mp hf
  show (cfg0.win 2).cut (grid0.coords t) ((dats m 0 c).after 2 t) = _
  rw [after2]
  exact cut_eq_read_colOf (Cert.Spec.rowMaxOff (rowsK m c)) t _ (flushed_point m c t h7)

/-- An index of the output column is in point t's block iff each coordinate is in the block's range on its axis. -/
private theorem mem_outBlk (t : Fin cfg0.N) (i : S16384x1.Idx) :
    i ∈ ((cfg0.win 2).blk t).view.set ↔ ∀ a : Fin 2, win0_2.index t a * S2048x1.size a ≤ (i a).val
      ∧ (i a).val < win0_2.index t a * S2048x1.size a + S2048x1.size a := by
  show i ∈ ((View.whole main_v6).slice (win0_2.rect t)).set ↔ _
  rw [View.set_slice_whole, Rect.mem_set_unit]
  exact Iff.rfl

/-- Row p of the output column is written back by the last point of its row tile, 8·(p / 2048) + 7. -/
private theorem outCover (i : S16384x1.Idx) :
    ∃ t : Fin cfg0.N, (cfg0.win 2).flush t = true ∧ i ∈ ((cfg0.win 2).blk t).view.set := by
  have hi0 : (i 0).val < 16384 := (i 0).isLt
  have hi1 : (i 1).val < 1 := (i 1).isLt
  obtain ⟨t, ht⟩ : ∃ t : Fin cfg0.N, t.val = 8 * ((i 0).val / 2048) + 7 :=
    ⟨⟨8 * ((i 0).val / 2048) + 7, by rw [points64]; omega⟩, rfl⟩
  obtain ⟨-, -, -, -, -, -, e0, e1⟩ := pointFacts t
  refine ⟨t, (flush0_2 t).mpr (by omega), ?_⟩
  rw [mem_outBlk]
  intro a
  match a with
  | ⟨0, _⟩ =>
    show win0_2.index t (0 : Fin 2) * 2048 ≤ (i 0).val ∧ (i 0).val < win0_2.index t (0 : Fin 2) * 2048 + 2048
    rw [e0]; omega
  | ⟨1, _⟩ =>
    show win0_2.index t (1 : Fin 2) * 1 ≤ (i 1).val ∧ (i 1).val < win0_2.index t (1 : Fin 2) * 1 + 1
    rw [e1]; omega

/-- The output column after every write-back, at row `p`. -/
theorem outCol_apply (c : Dev nD) (p : Fin 16384) :
    ((dats (F := Ideal) m 0 c).arrAt 2 cfg0.N : S16384x1.Idx → EReal) (ix2 p (0 : Fin 1))
      = Cert.Spec.rowMaxOff (rowsK m c) p := by
  have hfin := (dats (F := Ideal) m 0 c).arrAt_eq_of_cover 2 (colOf (Cert.Spec.rowMaxOff (rowsK m c)))
    (fun t hf => flushed_eq m c t hf) outCover
  exact (congrFun hfin (ix2 p (0 : Fin 1))).trans (colOf_apply _ p 0)

end Cert.KernelIdeal.Hand

end
-- ==== Proof.RefValue.lean ====
/-
  The reference's row maxima: at row p, the largest masked Gram entry of row p of its normalised rows (its quotient
  stage), the Gram matrix being the product with the transpose and the mask the identity pattern of two iotas.
-/
import proofs.«138519_j13924283973723_1_alg».proof.Defs
import proofs.«138519_j13924283973723_1_alg».proof.Proof.Gen.ReferenceIdeal.Run
import proofs.«138519_j13924283973723_1_alg».proof.Proof.Gen.ReferenceIdeal.Read
import proofs.«138519_j13924283973723_1_alg».proof.Proof.Spec
import Idealize.ShloMosaic.Lib.ValueIdx
import Idealize.ShloMosaic.Lib.StableHlo.Predicate
import Idealize.ShloMosaic.PureOps.Reduce
import Idealize.ShloMosaic.PureOps.Ideal.Laws

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

/-- The reference's normalised rows, by row and feature. -/
def rowsR (x0 : (⟨S16384x1024, .f32⟩ : BufTy).Contents (Elt Ideal)) : Fin 16384 → Fin 1024 → EReal := fun a k =>
  (val_main_v4 (F := Ideal) x0 : S16384x1024.Idx → EReal) (ix2 a k)

/-- The word of -∞ is the bottom of the extended reals. -/
private theorem negInf_eq_bot : (Ideal.ofBits .f32 0xFF800000#32 : EReal) = ⊥ := by
  simp [Ideal.ofBits, Ideal.ieee]

/-- The row index `p` with the column `k` put back on the reduced axis is the entry (p, k). -/
private theorem lift_row (h : S16384x16384.Reduces [1] S16384) (p : Fin 16384) (k : Fin (S16384x16384.size 1)) :
    h.lift (ix1 p) k = ix2 p (⟨k.val, k.isLt⟩ : Fin 16384) := by
  funext c; apply Fin.ext
  match c with
  | ⟨0, _⟩ => rfl
  | ⟨1, _⟩ => rfl

/-- The maximum-reduce along the columns, from -∞, read at row `p`: the fold of `max` from ⊥ over the row's entries. -/
private theorem reduce_row (y : (⟨S16384x16384, .f32⟩ : BufTy).Contents (Elt Ideal)) (g : Fin 16384 → EReal) (p : Fin 16384)
    (hy : ∀ q : Fin 16384, (y : S16384x16384.Idx → EReal) (ix2 p q) = g q) :
    (Host.reduce (FloatOps.maximumf (F := Ideal) (φ := .f32)) y (val_main_cst_1 (F := Ideal)) reducesTo_S16384x16384_S16384_d1 h_S_ : S16384.Idx → EReal) (ix1 p)
      = (Finset.univ : Finset (Fin 16384)).fold max ⊥ g := by
  have h : S16384x16384.Reduces [1] S16384 := by decide
  rw [Host.reduce_eq_fold_single (FloatOps.maximumf (F := Ideal) (φ := .f32)) y _ reducesTo_S16384x16384_S16384_d1 h h_S_]
  have hf : (y ∘ h.lift (ix1 p)) = g := funext fun k => (congrArg y (lift_row h p k)).trans (hy ⟨k.val, k.isLt⟩)
  rw [hf, val_main_cst_1_apply]
  exact congrArg (fun b => Finset.fold max b g Finset.univ) negInf_eq_bot

/-- The mask: the row iota plus zero equals the column iota exactly on the diagonal (both numbers are below 2 ^ 32). -/
private theorem mask_apply (i : S16384x16384.Idx) :
    IntOp.cmpi .eq (IntOp.addi (BitVec.ofNat 32 (i 0).val) 0#32) (BitVec.ofNat 32 (i 1).val)
      = if (i 0).val = (i 1).val then 1#1 else 0#1 := by
  have h0 : (i 0).val < 16384 := idx2_lt0 i
  have h1 : (i 1).val < 16384 := idx2_lt1 i
  by_cases e : (i 0).val = (i 1).val
  · rw [if_pos e]
    refine StableHlo.Predicate.cmpi_eq_iff.2 ?_
    apply BitVec.eq_of_toNat_eq
    simp only [IntOp.addi, BitVec.toNat_add, BitVec.toNat_ofNat]
    omega
  · rw [if_neg e]
    refine eq_zero_of_ne_one fun hc => e ?_
    have := congrArg BitVec.toNat (StableHlo.Predicate.cmpi_eq_iff.1 hc)
    simp only [IntOp.addi, BitVec.toNat_add, BitVec.toNat_ofNat] at this
    omega

/-- The masked product at the entry (p, q): -∞ on the diagonal, the inner product of the normalised rows `p` and `q` off it. -/
private theorem masked_apply (x0 : (⟨S16384x1024, .f32⟩ : BufTy).Contents (Elt Ideal)) (p q : Fin 16384) :
    (val_main_v12 (F := Ideal) x0 : S16384x16384.Idx → EReal) (ix2 p q) = Cert.Spec.simOff (rowsR x0) p q := by
  rw [val_main_v12_apply, val_main_v11_apply, val_main_v10_apply, val_main_v9_apply, val_main_c_apply, val_main_v7_apply,
    val_main_v8_apply, val_main_call1_v1_apply, val_main_call1_v0_apply, val_main_cst_0_apply, val_main_v6_apply,
    mask_apply (ix2 p q)]
  unfold Cert.Spec.simOff
  by_cases hpq : p = q
  · rw [if_pos hpq, if_pos (show ((ix2 p q : S16384x16384.Idx) 0).val = ((ix2 p q : S16384x16384.Idx) 1).val from congrArg Fin.val hpq),
      select_one]
    exact negInf_eq_bot
  · rw [if_neg hpq, if_neg (show ¬((ix2 p q : S16384x16384.Idx) 0).val = ((ix2 p q : S16384x16384.Idx) 1).val from
      fun e => hpq (Fin.ext e)), select_zero]
    refine Finset.sum_congr rfl fun k _ => ?_
    rw [val_main_v5_apply]
    have el : lidx_main_v6 (ix2 p q) k = ix2 p k := funext fun a => Fin.ext (by
      match a with
      | ⟨0, _⟩ => rfl
      | ⟨1, _⟩ => rfl)
    have er : idx_main_v5 (ridx_main_v6 (ix2 p q) k) = ix2 q k := funext fun a => Fin.ext (by
      match a with
      | ⟨0, _⟩ => rfl
      | ⟨1, _⟩ => rfl)
    rw [el, er]
    rfl

/-- The reference's row maximum at row `p`. -/
theorem rowmax_apply (x0 : (⟨S16384x1024, .f32⟩ : BufTy).Contents (Elt Ideal)) (p : Fin 16384) :
    (val_main_v13 (F := Ideal) x0 : S16384.Idx → EReal) (ix1 p) = Cert.Spec.rowMaxOff (rowsR x0) p := by
  unfold val_main_v13
  exact reduce_row (val_main_v12 (F := Ideal) x0) (Cert.Spec.simOff (rowsR x0) p) p (masked_apply x0 p)

end Cert.ReferenceIdeal.RefValue

end
-- ==== Proof.Bridge.lean ====
/-
  The two programs compute one function.

  Both normalise the rows of x by the larger of the row norm and 10⁻¹², form for each row p the largest inner product
  with another row (the diagonal masked to -∞), and close with  -mean(log(sqrt(2 - 2·m + 10⁻⁸))).  The kernel narrows
  the normalised rows to bf16, which at the ideal values changes nothing, and takes the row maximum tile by tile; the
  reference takes it over the whole Gram matrix. The closing chain is carried as one function of the row maxima.
-/
import proofs.«138519_j13924283973723_1_alg».proof.Proof.KernelIdealLaunch
import proofs.«138519_j13924283973723_1_alg».proof.Proof.KernelIdealColumn
import proofs.«138519_j13924283973723_1_alg».proof.Proof.RefValue
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.SL.Sem Idealize.ShloMosaic.StableHlo Idealize.ShloMosaic.ValueIdx
open Cert.KernelIdeal Cert.KernelIdeal.Gen

variable {F : FTy → Type} [FloatOps F]

/-- The rows of `x` divided by the larger of their norm and 10⁻¹². -/
def normK (x : FVec F S16384x1024 .f32) : FVec F S16384x1024 .f32 :=
  Host.divf x (broadcastInDim S16384x1024 ![0, 1] bcast_S16384x1_S16384x1024_0_1
    (maximumf (Host.sqrt (broadcastInDim S16384x1 ![0] bcast_S16384_S16384x1_0
        (Host.reduceAdd (mulf x x) (constant S_ .f32 0x00000000#32) reducesTo_S16384x1024_S16384_d1 h_S_)))
      (broadcastInDim S16384x1 ![] bcast_S_S16384x1 (constant S_ .f32 0x2B8CBCCC#32))))

/-- The closing chain on the column of row maxima: -mean(log(sqrt(2 - 2·m + 10⁻⁸))). -/
def tailK (col : FVec F S16384x1 .f32) : FVec F S_ .f32 :=
  Host.negf (Host.divf (Host.reduceAdd (Host.log (Host.sqrt (addf
      (subf (broadcastInDim S16384 ![] bcast_S_S16384 (constant S_ .f32 0x40000000#32))
        (mulf (broadcastInDim S16384 ![] bcast_S_S16384 (constant S_ .f32 0x40000000#32))
          (shapeCast S16384 col shapeCasts_S16384x1_S16384)))
      (broadcastInDim S16384 ![] bcast_S_S16384 (constant S_ .f32 0x322BCC77#32)))))
    (constant S_ .f32 0x00000000#32) reducesTo_S16384_S_d0 h_S_) (constant S_ .f32 0x46800000#32))

/-- The seventeen closing lines compute the closing chain of the output column they start from. -/
theorem tail_eq (W : Valuation τ sig (Elt F)) :
    StableHlo.after (hostOps1 (F := F)) W (Proc.devRef .tc main_v18) = tailK (W (Proc.devRef .tc main_v6)) := by
  unfold tailK
  after_results_simp <;> rfl

variable (m : (ℓ : Loc nD τ sig) → Buf (Elt F) ℓ)

/-- The region finds the narrowed normalised rows of the argument. -/
theorem rows_entry (c : Dev nD) :
    V m c main_v5 = truncf .bf16 (normK (m ((c.tc : Thread nD τ).loc main_arg0))) bitsLt_bf16_f32 := by
  unfold normK
  dsimp only [V, V0]
  simp only [hostOps0, hostOps0_1, List.flatten_cons, List.flatten_nil, List.append_nil, List.cons_append, List.nil_append]
  after_results_simp <;> rfl

/-- The closing lines start from the output column as the write-backs left it. -/
theorem exit_col (c : Dev nD) : Vexit m c (Proc.devRef .tc main_v6) = (dats m 0 c).arrAt 2 cfg0.N := by
  unfold Vexit
  exact StableHlo.nullary_result main_v6 _ _ _

end Cert.KernelIdeal.Hand

/-! ## The two results are one function of the argument -/

namespace Cert.Proof.Bridge

open Idealize.ShloMosaic Idealize.ShloMosaic.TcCoe Idealize.SL.Sem Idealize.ShloMosaic.ValueIdx
open Cert.KernelIdeal.Hand

/-- The reference's closing chain on the vector of row maxima. -/
def tailR (ms : FVec Ideal Cert.ReferenceIdeal.S16384 .f32) : FVec Ideal Cert.ReferenceIdeal.S_ .f32 :=
  Host.negf (Host.divf (Host.reduceAdd (Host.log (Host.sqrt (addf
      (subf (Cert.ReferenceIdeal.Read.val_main_v16 (F := Ideal) : FVec Ideal Cert.ReferenceIdeal.S16384 .f32)
        (mulf (Cert.ReferenceIdeal.Read.val_main_v14 (F := Ideal) : FVec Ideal Cert.ReferenceIdeal.S16384 .f32) ms))
      (Cert.ReferenceIdeal.Read.val_main_v18 (F := Ideal) : FVec Ideal Cert.ReferenceIdeal.S16384 .f32))))
    (Cert.ReferenceIdeal.Read.val_main_cst_5 (F := Ideal) : FVec Ideal Cert.ReferenceIdeal.S_ .f32)
    Cert.ReferenceIdeal.Facts₀.reducesTo_S16384_S_d0 Cert.ReferenceIdeal.Facts₀.h_S_)
    (Cert.ReferenceIdeal.Read.val_main_cst_6 (F := Ideal) : FVec Ideal Cert.ReferenceIdeal.S_ .f32))

/-- The reference's result is its closing chain of its row maxima. -/
theorem ref_result (x0 : (⟨Cert.ReferenceIdeal.S16384x1024, .f32⟩ : BufTy).Contents (Elt Ideal)) :
    Cert.ReferenceIdeal.Read.val_main_v24 (F := Ideal) x0 = tailR (Cert.ReferenceIdeal.Read.val_main_v13 (F := Ideal) x0) := rfl

/-- The kernel's closing chain is the reference's, after the column is read as a vector: the same operations and the
    same literals, in the same order. -/
theorem tail_same (col : FVec Ideal Cert.KernelIdeal.S16384x1 .f32) :
    tailK (F := Ideal) col
      = tailR (shapeCast Cert.KernelIdeal.S16384 col Cert.KernelIdeal.Facts₀.shapeCasts_S16384x1_S16384) := rfl

/-- A column read as a vector holds at `p` what the column holds at `(p, 0)`. -/
theorem reshape_col (col : FVec Ideal Cert.KernelIdeal.S16384x1 .f32) (p : Fin 16384) :
    shapeCast Cert.KernelIdeal.S16384 col Cert.KernelIdeal.Facts₀.shapeCasts_S16384x1_S16384 (ix1 p) = col (ix2 p (0 : Fin 1)) :=
  shapeCast_apply col _ (ix1 p) (ix2 p (0 : Fin 1)) (by
    rw [Shape.rowMajor_val_two, Shape.rowMajor_val_one]; simp)

/-- The kernel's normalisation of the rows is the reference's quotient stage: the same operations and literals. -/
theorem norm_same (x0 : FVec Ideal Cert.KernelIdeal.S16384x1024 .f32) :
    normK (F := Ideal) x0 = Cert.ReferenceIdeal.Read.val_main_v4 (F := Ideal) x0 := rfl

variable (m : (ℓ : Loc Cert.KernelIdeal.nD Cert.KernelIdeal.τ Cert.KernelIdeal.sig) → Buf (Elt Ideal) ℓ)

/-- The rows the region finds are the normalised rows of the argument: narrowing to bf16 is the identity at the
    ideal values. -/
theorem rows_fn (c : Dev Cert.KernelIdeal.nD) :
    (V m c Cert.KernelIdeal.main_v5 : Cert.KernelIdeal.S16384x1024.Idx → EReal)
      = normK (F := Ideal) (m ((c.tc : Thread Cert.KernelIdeal.nD Cert.KernelIdeal.τ).loc Cert.KernelIdeal.main_arg0)) :=
  (rows_entry m c).trans (funext fun i => truncf_apply _ _ i)

/-- So they are the reference's normalised rows of the same argument. -/
theorem rows_same (c : Dev Cert.KernelIdeal.nD) :
    rowsK m c = Cert.ReferenceIdeal.RefValue.rowsR
      (m ((c.tc : Thread Cert.KernelIdeal.nD Cert.KernelIdeal.τ).loc Cert.KernelIdeal.main_arg0)) := by
  funext a k
  exact (congrFun (rows_fn m c) (ix2 a k)).trans (congrFun (norm_same _) (ix2 a k))

/-- The kernel's result is the reference's result on the same argument. -/
theorem result_same (c : Dev Cert.KernelIdeal.nD) :
    StableHlo.after (Cert.KernelIdeal.Gen.hostOps1 (F := Ideal)) (Vexit m c) (Proc.devRef .tc Cert.KernelIdeal.main_v18)
      = Cert.ReferenceIdeal.Read.val_main_v24 (F := Ideal)
          (m ((c.tc : Thread Cert.KernelIdeal.nD Cert.KernelIdeal.τ).loc Cert.KernelIdeal.main_arg0)) := by
  rw [tail_eq, exit_col, tail_same, ref_result]
  refine congrArg tailR (funext fun i => ?_)
  obtain ⟨p, rfl⟩ : ∃ p : Fin 16384, i = ix1 p := ⟨i 0, eq_ix1 i⟩
  rw [reshape_col, outCol_apply, Cert.ReferenceIdeal.RefValue.rowmax_apply, rows_same]

end Cert.Proof.Bridge

end
-- ==== Proof.lean ====
/-
  The certificate: the tiled cosine-similarity row maximum against the whole-matrix one.

  The word-level kernel and its idealisation each run to the end without a fault and leave the argument as it was:
  one pipelined region between host lines, its two input windows sharing the array of normalised rows, its scratch
  column carrying the running row maximum across the column tiles. The reference is a straight line of host
  operations. The ideal pass rewrote nothing, so the kernel's idealisation is its own text. At the ideal values the
  two results agree: maxima over column tiles combine to the maximum over all columns, narrowing to bf16 changes
  nothing, and everything before and after the row maximum is the same chain of operations with the same literals.
-/
import proofs.«138519_j13924283973723_1_alg».proof.Defs
import proofs.«138519_j13924283973723_1_alg».proof.Proof.Gen.Kernel
import proofs.«138519_j13924283973723_1_alg».proof.Proof.Gen.KernelIdeal
import proofs.«138519_j13924283973723_1_alg».proof.Proof.Gen.ReferenceIdeal
import proofs.«138519_j13924283973723_1_alg».proof.Proof.Gen.Pre_finite_inputs
import proofs.«138519_j13924283973723_1_alg».proof.Proof.Gen.ReferenceIdeal.Run
import proofs.«138519_j13924283973723_1_alg».proof.Proof.Gen.ReferenceIdeal.Read
import proofs.«138519_j13924283973723_1_alg».proof.Proof.KernelLaunch
import proofs.«138519_j13924283973723_1_alg».proof.Proof.KernelIdealLaunch
import proofs.«138519_j13924283973723_1_alg».proof.Proof.Bridge

noncomputable section

namespace Cert.Proof

open Idealize.ShloMosaic Idealize.ShloMosaic.TcCoe Idealize.SL.Sem

/-- The word-level kernel runs and leaves its argument unchanged. -/
theorem frame_k : Cert.frame_Kernel := fun m ρ _ =>
  (θ_run Cert.Kernel.defs _ _).mono (fun _ h c => (h c).2) (Cert.Kernel.Hand.run_main (F := Bits) m ρ)

/-- So does its idealisation. -/
theorem frame_ki : Cert.frame_KernelIdeal := fun m ρ _ =>
  (θ_run Cert.KernelIdeal.defs _ _).mono (fun _ h c => (h c).2) (Cert.KernelIdeal.Hand.run_main (F := Ideal) m ρ)

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal values both programs end at the reference's last stage of the common argument. -/
theorem algebraic : Cert.algebraic_KernelIdeal_ReferenceIdeal := by
  intro m ρ m' ρ' _ hagree
  refine ⟨fun c => Cert.ReferenceIdeal.Read.val_main_v24 (F := Ideal)
      (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (Cert.Proof.Bridge.result_same m c), (h c).2⟩)
      (Cert.KernelIdeal.Hand.run_main (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v24_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
